-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S256x128 : Shape := ⟨2, ![256, 128]⟩
abbrev S2x600000 : Shape := ⟨2, ![2, 600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg4 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S256x128 .f32) (main_arg4 : FVec F S128 .f32) (main_arg5 : IVec S2x600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S256x128 : Shape := ⟨2, ![256, 128]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S602112 : Shape := ⟨1, ![602112]⟩
abbrev S602112x1 : Shape := ⟨2, ![602112, 1]⟩
abbrev S602112x128 : Shape := ⟨2, ![602112, 128]⟩
abbrev S4096x128 : Shape := ⟨2, ![4096, 128]⟩
abbrev S1x128 : Shape := ⟨2, ![1, 128]⟩
abbrev S5000x128 : Shape := ⟨2, ![5000, 128]⟩

abbrev nBuf : Space → Nat
  | .hbm => 58
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S256x128, .f32⟩
  | .hbm, ⟨4, _⟩ => ⟨S128, .f32⟩
  | .hbm, ⟨5, _⟩ => ⟨S2x600000, .i32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .i32⟩
  | .hbm, ⟨11, _⟩ => ⟨S_, .i32⟩
  | .hbm, ⟨12, _⟩ => ⟨S602112, .i32⟩
  | .hbm, ⟨13, _⟩ => ⟨S_, .i32⟩
  | .hbm, ⟨14, _⟩ => ⟨S_, .i32⟩
  | .hbm, ⟨15, _⟩ => ⟨S602112, .i32⟩
  | .hbm, ⟨16, _⟩ => ⟨S_, .i32⟩
  | .hbm, ⟨17, _⟩ => ⟨S602112, .i32⟩
  | .hbm, ⟨18, _⟩ => ⟨S602112, .i1⟩
  | .hbm, ⟨19, _⟩ => ⟨S_, .i32⟩
  | .hbm, ⟨20, _⟩ => ⟨S602112, .i32⟩
  | .hbm, ⟨21, _⟩ => ⟨S602112, .i32⟩
  | .hbm, ⟨22, _⟩ => ⟨S602112, .i32⟩
  | .hbm, ⟨23, _⟩ => ⟨S602112x1, .i32⟩
  | .hbm, ⟨24, _⟩ => ⟨S602112x128, .f32⟩
  | .hbm, ⟨25, _⟩ => ⟨S_, .i32⟩
  | .hbm, ⟨26, _⟩ => ⟨S602112, .i32⟩
  | .hbm, ⟨27, _⟩ => ⟨S602112, .i1⟩
  | .hbm, ⟨28, _⟩ => ⟨S_, .i32⟩
  | .hbm, ⟨29, _⟩ => ⟨S602112, .i32⟩
  | .hbm, ⟨30, _⟩ => ⟨S602112, .i32⟩
  | .hbm, ⟨31, _⟩ => ⟨S602112, .i32⟩
  | .hbm, ⟨32, _⟩ => ⟨S602112x1, .i32⟩
  | .hbm, ⟨33, _⟩ => ⟨S602112x128, .f32⟩
  | .hbm, ⟨34, _⟩ => ⟨S128x128, .f32⟩
  | .hbm, ⟨35, _⟩ => ⟨S128x128, .f32⟩
  | .hbm, ⟨36, _⟩ => ⟨S602112x128, .f32⟩
  | .hbm, ⟨37, _⟩ => ⟨S602112, .i32⟩
  | .hbm, ⟨38, _⟩ => ⟨S_, .i32⟩
  | .hbm, ⟨39, _⟩ => ⟨S602112, .i32⟩
  | .hbm, ⟨40, _⟩ => ⟨S602112, .i1⟩
  | .hbm, ⟨41, _⟩ => ⟨S602112x1, .i1⟩
  | .hbm, ⟨42, _⟩ => ⟨S_, .f32⟩
  | .hbm, ⟨43, _⟩ => ⟨S602112x128, .f32⟩
  | .hbm, ⟨44, _⟩ => ⟨S602112x128, .i1⟩
  | .hbm, ⟨45, _⟩ => ⟨S602112x128, .f32⟩
  | .hbm, ⟨46, _⟩ => ⟨S_, .f32⟩
  | .hbm, ⟨47, _⟩ => ⟨S50000x128, .f32⟩
  | .hbm, ⟨48, _⟩ => ⟨S_, .i32⟩
  | .hbm, ⟨49, _⟩ => ⟨S602112, .i32⟩
  | .hbm, ⟨50, _⟩ => ⟨S602112, .i1⟩
  | .hbm, ⟨51, _⟩ => ⟨S_, .i32⟩
  | .hbm, ⟨52, _⟩ => ⟨S602112, .i32⟩
  | .hbm, ⟨53, _⟩ => ⟨S602112, .i32⟩
  | .hbm, ⟨54, _⟩ => ⟨S602112, .i32⟩
  | .hbm, ⟨55, _⟩ => ⟨S602112x1, .i32⟩
  | .hbm, ⟨56, _⟩ => ⟨S50000x128, .f32⟩
  | .hbm, ⟨57, _⟩ => ⟨S50000x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128, .f32⟩
  | .local _ .vmem, ⟨8, _⟩ => ⟨S128, .f32⟩
  | .local _ .vmem, ⟨9, _⟩ => ⟨S4096x128, .f32⟩
  | .local _ .vmem, ⟨10, _⟩ => ⟨S4096x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S128, .f32⟩
  | .local _ .vmem, ⟨17, _⟩ => ⟨S5000x128, .f32⟩
  | .local _ .vmem, ⟨18, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst : Ref sig .tc := ⟨.hbm, 42, rfl⟩
abbrev main_v27 : Ref sig .tc := ⟨.hbm, 43, rfl⟩
abbrev main_call2_v0 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![147], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  pads_S600000_S602112_021120 : S600000.Pads (![0] : Fin 1 → Nat) ![2112] ![0] S602112
  h_S_ : 0 < S_.numel
  bcast_S_S602112 : S_.BroadcastsInDim S602112 (![] : Fin 0 → Fin S602112.rank)
  bcast_S602112_S602112x1_0 : S602112.BroadcastsInDim S602112x1 (![0] : Fin 1 → Fin S602112x1.rank)
  slices_S256x128_S128x128_0_0 : S256x128.Slices ![0, 0] S128x128
  slices_S256x128_S128x128_128_0 : S256x128.Slices ![128, 0] S128x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  bcast_S_S602112x128 : S_.BroadcastsInDim S602112x128 (![] : Fin 0 → Fin S602112x128.rank)
  bcast_S602112x1_S602112x128_0_1 : S602112x1.BroadcastsInDim S602112x128 (![0, 1] : Fin 2 → Fin S602112x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  broadcasts_S1x128_S5000x128 : S1x128.Broadcasts S5000x128
  shapeCasts_S5000x128_S5000x128 : S5000x128.ShapeCasts S5000x128
  gather_S50000x128_S602112x1_S602112x128_1_0_n_n_0_1_1128_wf : GatherDims.WF S50000x128 S602112x1 S602112x128 [1] [0] [] [0] [] 1 ![1, 128]
  dot_S4096x128_S128x128_S4096x128_1_0_0_1_n_n_wf : DotDims.WF S4096x128 S128x128 S4096x128 [1] [0] [0] [1] [] []
  scatter_S50000x128_S602112x1_S602112x128_1_0_0_1_wf : ScatterDims.WF S50000x128 S602112x1 S602112x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S602112x128.size a
  hwx0_0 : ∀ i : grid0.Coords, EltTy.bits .f32 = 32 ∨ (Rect.block (s := S602112x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S602112x128.size a
  hwx0_1 : ∀ i : grid0.Coords, EltTy.bits .f32 = 32 ∨ (Rect.block (s := S602112x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S602112x128.size a
  hwx0_7 : ∀ i : grid0.Coords, EltTy.bits .f32 = 32 ∨ (Rect.block (s := S602112x128) S4096x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def gather_S50000x128_S602112x1_S602112x128_1_0_n_n_0_1_1128 : GatherDims S50000x128 S602112x1 S602112x128 where
  offsetDims := [1]
  collapsedSliceDims := [0]
  operandBatchingDims := []
  startIndicesBatchingDims := []
  startIndexMap := [0]
  indexVectorDim := 1
  sliceSizes := ![1, 128]
  wf := gather_S50000x128_S602112x1_S602112x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S50000x128_S602112x1_S602112x128_1_0_0_1 : ScatterDims S50000x128 S602112x1 S602112x128 where
  updateWindowDims := [1]
  insertedWindowDims := [0]
  scatterDimsToOperandDims := [0]
  indexVectorDim := 1
  wf := scatter_S50000x128_S602112x1_S602112x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v12) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S256x128 : Shape := ⟨2, ![256, 128]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x256 : Shape := ⟨2, ![600000, 256]⟩
abbrev S1x128 : Shape := ⟨2, ![1, 128]⟩

abbrev nBuf : Space → Nat
  | .hbm => 62
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S256x128, .f32⟩
  | .hbm, ⟨4, _⟩ => ⟨S128, .f32⟩
  | .hbm, ⟨5, _⟩ => ⟨S2x600000, .i32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .i32⟩
  | .hbm, ⟨11, _⟩ => ⟨S600000, .i32⟩
  | .hbm, ⟨12, _⟩ => ⟨S600000, .i1⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S600000, .i32⟩
  | .hbm, ⟨17, _⟩ => ⟨S600000x1, .i32⟩
  | .hbm, ⟨18, _⟩ => ⟨S600000x128, .f32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S600000x256, .f32⟩
  | .hbm, ⟨29, _⟩ => ⟨S600000x128, .f32⟩
  | .hbm, ⟨30, _⟩ => ⟨S1x128, .f32⟩
  | .hbm, ⟨31, _⟩ => ⟨S600000x128, .f32⟩
  | .hbm, ⟨32, _⟩ => ⟨S600000x128, .f32⟩
  | .hbm, ⟨33, _⟩ => ⟨S600000x128, .f32⟩
  | .hbm, ⟨34, _⟩ => ⟨S600000x128, .f32⟩
  | .hbm, ⟨35, _⟩ => ⟨S_, .f32⟩
  | .hbm, ⟨36, _⟩ => ⟨S600000x128, .f32⟩
  | .hbm, ⟨37, _⟩ => ⟨S600000x128, .f32⟩
  | .hbm, ⟨38, _⟩ => ⟨S_, .f32⟩
  | .hbm, ⟨39, _⟩ => ⟨S600000x128, .f32⟩
  | .hbm, ⟨40, _⟩ => ⟨S600000x128, .f32⟩
  | .hbm, ⟨41, _⟩ => ⟨S600000x128, .f32⟩
  | .hbm, ⟨42, _⟩ => ⟨S1x128, .f32⟩
  | .hbm, ⟨43, _⟩ => ⟨S600000x128, .f32⟩
  | .hbm, ⟨44, _⟩ => ⟨S600000x128, .f32⟩
  | .hbm, ⟨45, _⟩ => ⟨S600000x128, .f32⟩
  | .hbm, ⟨46, _⟩ => ⟨S_, .f32⟩
  | .hbm, ⟨47, _⟩ => ⟨S50000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_c_5 : Ref sig .tc := ⟨.hbm, 48, rfl⟩
abbrev main_v35 : Ref sig .tc := ⟨.hbm, 49, rfl⟩
abbrev main_v36 : Ref sig .tc := ⟨.hbm, 50, rfl⟩
abbrev main_c_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x256_d1 : Shape.Concatenates [S600000x128, S600000x128] S600000x256 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  dot_S600000x256_S256x128_S600000x128_1_0_0_1_n_n_wf : DotDims.WF S600000x256 S256x128 S600000x128 [1] [0] [0] [1] [] []
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The graph convolution both programs compute, on the extended reals.

  Nodes carry feature rows `x[n, ·]` (50000 nodes, 128 features). An edge `e` names two endpoint words
  `(r, c) = (edge_index[0, e], edge_index[1, e])`. A word is first normalised (a negative word counts from the end
  of the node list); a gather reads the node row the normalised word names, clamped into range; a scatter adds at
  the node the normalised word names when it is in range and drops the update otherwise.

  The message of an edge at feature `q` is `σ(x_r · Wg[0:128, q] + x_c · Wg[128:256, q] + bg[q]) · (x_c · W[·, q] + b[q])`
  with `σ z = 1 / (1 + e^(−z))`; node `n` ends at the sum of the messages of the edges that land on it, plus
  `x_n · W[·, q] + b[q]`.

  Also here: the two facts about finite sums on the extended reals that join the two programs' arrangements. The
  sum over the 256 gate inputs is the sum over the first 128 plus the sum over the last 128 (addition on the
  extended reals is a commutative monoid, so no finiteness is needed), and a filtered sum over an edge list padded
  with entries whose term is zero is the filtered sum over the unpadded list.
-/
import Idealize.ShloMosaic.PureOps.Ideal.Laws
import Idealize.ShloMosaic.Lib.ValueIdx

noncomputable section

open scoped BigOperators
open Idealize.ShloMosaic Idealize.ShloMosaic.ValueIdx

namespace Cert.GraphConv

/-- Node features, and every per-node array: `[50000, 128]`. -/
abbrev SN : Shape := ⟨2, ![50000, 128]⟩
/-- A square weight: `[128, 128]`. -/
abbrev SW : Shape := ⟨2, ![128, 128]⟩
/-- The gate's weight, both halves: `[256, 128]`. -/
abbrev SG : Shape := ⟨2, ![256, 128]⟩
/-- A bias: `[128]`. -/
abbrev SB : Shape := ⟨1, ![128]⟩
/-- The edge list's two rows of endpoint words: `[2, 600000]`. -/
abbrev SE : Shape := ⟨2, ![2, 600000]⟩
/-- Per-edge arrays over the edge list: `[600000, 128]`. -/
abbrev SM : Shape := ⟨2, ![600000, 128]⟩
/-- Per-edge arrays over the edge list padded to a whole number of 4096-edge blocks: `[602112, 128]`. -/
abbrev SP : Shape := ⟨2, ![602112, 128]⟩

/-! ## Endpoint words -/

/-- An endpoint word as indexing normalises it: a negative word counts from the end of the 50000 nodes. -/
def normW (w : BitVec 32) : BitVec 32 := Scalar.select (IntOp.cmpi .slt w 0#32) (IntOp.addi w 50000#32) w

/-- The node row a gather reads for a word: the word read signed, clamped into `[0, 49999]`. -/
def rowOf (w : BitVec 32) : Fin 50000 := ⟨min w.toInt.toNat 49999, by omega⟩

/-- Where a scatter of feature `q` lands for a word: node `w` when the word, read signed, is a node; nowhere otherwise. -/
def target? (w : BitVec 32) (q : Fin 128) : Option SN.Idx :=
  if h : 0 ≤ w.toInt ∧ w.toInt < 50000 then some (ix2 ⟨w.toInt.toNat, by omega⟩ q) else none

/-- The padded edge list's endpoint word at position `e`: the list's word below 600000, the pad value `0` from there on. -/
def padW (ws : Fin 600000 → BitVec 32) (e : Fin 602112) : BitVec 32 :=
  if h : e.val < 600000 then ws ⟨e.val, h⟩ else 0#32

/-! ## One edge's message, one node's own term -/

/-- The gated message from two feature rows and the weight columns of one output feature:
    `σ(xr · wg₁ + xc · wg₂ + bg) · (xc · w + b)`. -/
def gated (xr xc wg1 wg2 wv : Fin 128 → EReal) (bgq bq : EReal) : EReal :=
  Ideal.logistic (((∑ k : Fin 128, xr k * wg1 k) + (∑ k : Fin 128, xc k * wg2 k)) + bgq) * ((∑ k : Fin 128, xc k * wv k) + bq)

/-- The message of an edge with endpoint words `(r, c)` at feature `q`. -/
def message (x : SN.Idx → EReal) (W : SW.Idx → EReal) (b : SB.Idx → EReal) (Wg : SG.Idx → EReal) (bg : SB.Idx → EReal)
    (r c : BitVec 32) (q : Fin 128) : EReal :=
  gated (fun k => x (ix2 (rowOf (normW r)) k)) (fun k => x (ix2 (rowOf (normW c)) k))
    (fun k => Wg (ix2 ⟨k.val, by omega⟩ q)) (fun k => Wg (ix2 ⟨128 + k.val, by omega⟩ q)) (fun k => W (ix2 k q))
    (bg (ix1 q)) (b (ix1 q))

/-- A node's own term at feature `q`: `x_n · W[·, q] + b[q]`. -/
def nodeTerm (x : SN.Idx → EReal) (W : SW.Idx → EReal) (b : SB.Idx → EReal) (n : Fin 50000) (q : Fin 128) : EReal :=
  (∑ k : Fin 128, x (ix2 n k) * W (ix2 k q)) + b (ix1 q)

/-- The edge list's word on row `a` (0: the scatter's and first gather's endpoint, 1: the second gather's) at edge `e`. -/
def edgeW (ei : SE.Idx → BitVec 32) (a : Fin 2) (e : Fin 600000) : BitVec 32 := ei (ix2 a e)

/-- THE RESULT: at node `n`, feature `q`: zero, plus the messages of the edges landing on `(n, q)`, plus the node's own term. -/
def result (x : SN.Idx → EReal) (W : SW.Idx → EReal) (b : SB.Idx → EReal) (Wg : SG.Idx → EReal) (bg : SB.Idx → EReal)
    (ei : SE.Idx → BitVec 32) : SN.Idx → EReal := fun i =>
  ((0 : EReal) + ∑ p ∈ Finset.univ.filter (fun p : SM.Idx => target? (normW (edgeW ei 0 (p 0))) (p 1) = some i),
      message x W b Wg bg (edgeW ei 0 (p 0)) (edgeW ei 1 (p 0)) (p 1))
    + nodeTerm x W b (i 0) (i 1)

/-! ## The two kernels' output arrays, entry by entry -/

/-- What the message kernel leaves over the padded edge list: at padded edge `e`, feature `q`, the gated message of the
    two gathered rows `XR[e, ·]`, `XC[e, ·]` through the gate's two halves `WG1`, `WG2` and the weight `Wm`. -/
def messageArray (XR XC : SP.Idx → EReal) (WG1 WG2 Wm : SW.Idx → EReal) (bgv bv : SB.Idx → EReal) : SP.Idx → EReal :=
  fun i => gated (fun k => XR (ix2 (i 0) k)) (fun k => XC (ix2 (i 0) k))
    (fun k => WG1 (ix2 k (i 1))) (fun k => WG2 (ix2 k (i 1))) (fun k => Wm (ix2 k (i 1))) (bgv (ix1 (i 1))) (bv (ix1 (i 1)))

/-- What the node kernel leaves: at node `n`, feature `q`, the scattered sum `S[n, q]` plus the node's own term. -/
def nodeArray (S X : SN.Idx → EReal) (Wm : SW.Idx → EReal) (bv : SB.Idx → EReal) : SN.Idx → EReal :=
  fun i => S i + nodeTerm X Wm bv (i 0) (i 1)

/-! ## The two sum facts -/

/-- A sum over 256 inputs laid out as two runs of 128 is the sum over the first run plus the sum over the second. -/
theorem sum_two_halves (f : Fin 256 → EReal) :
    ∑ k : Fin 256, f k = (∑ k : Fin 128, f ⟨k.val, by omega⟩) + ∑ k : Fin 128, f ⟨128 + k.val, by omega⟩ := by
  exact Fin.sum_univ_add (a := 128) (b := 128) f

/-- A filtered sum over the padded edge list whose terms vanish on the pad is the filtered sum over the edge list:
    the predicate and the term depend on an edge only through its endpoint words, which the padding keeps below 600000. -/
theorem sum_padded {I : Type} [DecidableEq I] (T : BitVec 32 → Fin 128 → Option I) (Mf : BitVec 32 → BitVec 32 → Fin 128 → EReal)
    (rs cs : Fin 600000 → BitVec 32) (i : I) :
    ∑ p ∈ Finset.univ.filter (fun p : SP.Idx => T (padW rs (p 0)) (p 1) = some i),
        (if (p 0).val < 600000 then Mf (padW rs (p 0)) (padW cs (p 0)) (p 1) else 0)
      = ∑ p ∈ Finset.univ.filter (fun p : SM.Idx => T (rs (p 0)) (p 1) = some i), Mf (rs (p 0)) (cs (p 0)) (p 1) := by
  -- both filtered sums as sums over every index of an `if`, then as double sums over the two coordinates
  rw [Finset.sum_filter, Finset.sum_filter, sum_idx2, sum_idx2]
  -- the outer sum over the 602112 padded edges splits at 600000
  have hs := Fin.sum_univ_add (a := 600000) (b := 2112) (fun a : Fin 602112 => ∑ b : Fin 128,
    if T (padW rs a) b = some i then (if a.val < 600000 then Mf (padW rs a) (padW cs a) b else 0) else (0 : EReal))
  -- below 600000 the padded word is the list's word
  have hpad : ∀ (ws : Fin 600000 → BitVec 32) (a : Fin 600000), padW ws (Fin.castAdd 2112 a) = ws a := by
    intro ws a
    unfold padW
    rw [dif_pos (show (Fin.castAdd 2112 a).val < 600000 from a.isLt)]
    exact congrArg ws (Fin.ext rfl)
  refine hs.trans ?_
  -- from 600000 on every term is the `else 0`
  have h2 : (∑ a : Fin 2112, ∑ b : Fin 128,
      if T (padW rs (Fin.natAdd 600000 a)) b = some i then
        (if (Fin.natAdd 600000 a).val < 600000 then Mf (padW rs (Fin.natAdd 600000 a)) (padW cs (Fin.natAdd 600000 a)) b else 0)
      else (0 : EReal)) = 0 := by
    refine Finset.sum_eq_zero (fun a _ => Finset.sum_eq_zero (fun b _ => ?_))
    rw [if_neg (show ¬ (Fin.natAdd 600000 a).val < 600000 by rw [Fin.coe_natAdd]; omega), ite_self]
  rw [h2, add_zero]
  refine Finset.sum_congr rfl (fun a _ => Finset.sum_congr rfl (fun b _ => ?_))
  rw [hpad rs a, hpad cs a, if_pos (show (Fin.castAdd 2112 a).val < 600000 from a.isLt)]

end Cert.GraphConv

end
-- ==== Proof.LibMatmulPlain.lean ====
/-
  A plain matrix product read at one entry, on the extended reals.

  For the dimension numbers of an `[M, K]` by `[K, N]` product (contract the left operand's columns with the right
  operand's rows, no batch axis), the matrix unit's product accumulated into a zero block, and the host's
  `dot_general`, are both, at entry `(r, s)`, the sum over `k` of `lhs[r, k] · rhs[k, s]`: the contraction index
  has one coordinate, and the operand indices at `(r, s)` and `k` are `(r, k)` and `(k, s)`.
-/
import Idealize.ShloMosaic.PureOps.Ideal.Laws
import Idealize.ShloMosaic.Lib.ValueIdx

noncomputable section

open scoped BigOperators
open Idealize.ShloMosaic Idealize.ShloMosaic.ValueIdx

namespace Cert.MatmulPlain

variable {M K N : Nat}

/-- The left operand's index at output `(r, s)` and contraction coordinate `k` is `(r, k)`. -/
theorem lhsIdx_plain (r : Fin M) (s : Fin N) (k : Fin K) :
    (DotDims.plain M K N).lhsIdx (ix2 r s) ((contrEquiv1 (DotDims.plain M K N) K rfl rfl).symm k) = ix2 r k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 r s) _).trans hk

/-- The right operand's index there is `(k, s)`. -/
theorem rhsIdx_plain (r : Fin M) (s : Fin N) (k : Fin K) :
    (DotDims.plain M K N).rhsIdx (ix2 r s) ((contrEquiv1 (DotDims.plain M K N) K rfl rfl).symm k) = ix2 k s := by
  have hk := contrEquiv1_symm_val (DotDims.plain M K N) K rfl rfl k
  funext a
  refine Fin.ext ?_
  match a with
  | ⟨0, _⟩ => exact ((DotDims.plain M K N).rhsIdx_val_of_single rfl (ix2 r s) _).trans hk
  | ⟨1, _⟩ => rfl

/-- The matrix unit's product into a zero accumulator, at entry `(r, s)`: `Σ_k lhs[r, k] · rhs[k, s]`. -/
theorem matmul_zero_apply {φ₁ φ₂ : FTy} (prec : Option ContractPrecision)
    (lhs : FVec Ideal ⟨2, ![M, K]⟩ φ₁) (rhs : FVec Ideal ⟨2, ![K, N]⟩ φ₂) (r : Fin M) (s : Fin N) :
    FloatOps.matmul (DotDims.plain M K N) prec lhs rhs (constant ⟨2, ![M, N]⟩ .f32 0x00000000#32) (ix2 r s)
      = ∑ k : Fin K, lhs (ix2 r k) * rhs (ix2 k s) := by
  rw [Ideal.matmul_constant_zero_apply, ← Equiv.sum_comp (contrEquiv1 (DotDims.plain M K N) K rfl rfl).symm]
  refine Finset.sum_congr rfl fun k _ => ?_
  rw [lhsIdx_plain, rhsIdx_plain]

/-- The host's `dot_general` at entry `(r, s)`: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (s : Fin N) :
    FloatOps.dotGeneral (DotDims.plain M K N) prec sched lhs rhs (ix2 r s)
      = ∑ k : Fin K, lhs (ix2 r k) * rhs (ix2 k s) := by
  rw [Ideal.dotGeneral_apply, ← Equiv.sum_comp (contrEquiv1 (DotDims.plain M K N) K rfl rfl).symm]
  refine Finset.sum_congr rfl fun k _ => ?_
  rw [lhsIdx_plain, rhsIdx_plain]

end Cert.MatmulPlain

end
-- ==== Proof.NodeRegion.lean ====
/-
  The node kernel's output array.

  The kernel runs over 10 blocks of 5000 nodes. At block `t` it reads block `t` of the scattered sums and of the node
  features, the whole weight and bias, and stores `S + (x · W + b)` into block `t` of the output. The blocks tile the
  50000 nodes, so after the last block the output array is, entry by entry, `S[n, q] + Σ_k x[n, k] · W[k, q] + b[q]`
  of the arrays as the region finds them. The narrowing of the matrix unit's operands to bf16 is the identity on the
  extended reals, and the product into a zero accumulator is the plain sum.
-/
import proofs.«141582_j7275674599728_1_alg».proof.Proof.Gen.KernelIdeal.Frame
import proofs.«141582_j7275674599728_1_alg».proof.Proof.Spec
import proofs.«141582_j7275674599728_1_alg».proof.Proof.LibMatmulPlain
import Idealize.ShloMosaic.Lib.Pipeline.Value
import Idealize.ShloMosaic.Lib.ValueLayout
set_option maxRecDepth 16384

noncomputable section

open scoped BigOperators
open Idealize.ShloMosaic Idealize.ShloMosaic.TcCoe Idealize.SL.Sem Idealize.ShloMosaic.ValueIdx
open Idealize.ShloMosaic.Pipeline (Dat Cfg Window)
open Cert.KernelIdeal Cert.KernelIdeal.Gen

namespace Cert.KernelIdeal.NodeRegion

variable (V : (c : Dev nD) → (b : Ref sig .tc) → Buf (Elt Ideal) ((c : Thread nD τ).loc b))

/-! ## The body's arithmetic at one entry -/

/-- The matrix unit's product of the narrowed feature block and the narrowed weight into a zero block, at entry
    `(p, q)`: the narrowing is the identity on the extended reals and the record of dimension numbers is the plain
    `[5000, 128]` by `[128, 128]` one, so the entry is `Σ_k x[p, k] · W[k, q]`. -/
theorem product_apply (x : Vec Ideal S5000x128 .f32) (W : Vec Ideal S128x128 .f32) (p : Fin 5000) (q : Fin 128) :
    matmul (F := Ideal) dot_S5000x128_S128x128_S5000x128_1_0_0_1_n_n none (truncf .bf16 x bitsLt_bf16_f32)
        (truncf .bf16 W bitsLt_bf16_f32) (constant (F := Ideal) S5000x128 .f32 0x00000000#32) (ix2 p q)
      = ∑ k : Fin 128, x (ix2 p k) * W (ix2 k q) := by
  have hd : dot_S5000x128_S128x128_S5000x128_1_0_0_1_n_n = DotDims.plain 5000 128 128 := rfl
  rw [hd]
  exact Cert.MatmulPlain.matmul_zero_apply (M := 5000) (K := 128) (N := 128) none x W p q

/-- The bias row, given a unit leading axis and repeated down the 5000 rows, at entry `(p, q)` is `b[q]`: a row
    broadcast reads its one row, and the added unit axis reads through to the vector. -/
theorem bias_apply (bv : Vec Ideal S128 .f32) (p : Fin 5000) (q : Fin 128) :
    broadcastTo S5000x128 (shapeCast S1x128 bv shapeCasts_S128_S1x128) broadcasts_S1x128_S5000x128 (ix2 p q) = bv (ix1 q) :=
  (broadcastTo_1b_ab_apply (a := 5000) (b := 128) (shapeCast S1x128 bv shapeCasts_S128_S1x128) broadcasts_S1x128_S5000x128 p q).trans
    (shapeCast_a_1a_apply (a := 128) bv shapeCasts_S128_S1x128 0 q)

/-- THE PAYLOAD at entry `(p, q)`: the sums' entry plus the product's entry plus the bias' entry. -/
theorem payload_apply (x : Vec Ideal S5000x128 .f32) (W : Vec Ideal S128x128 .f32) (bv : Vec Ideal S128 .f32)
    (S : Vec Ideal S5000x128 .f32) (p : Fin 5000) (q : Fin 128) :
    k1_pay1 (F := Ideal) x W bv S (ix2 p q)
      = S (ix2 p q) + ((∑ k : Fin 128, x (ix2 p k) * W (ix2 k q)) + bv (ix1 q)) := by
  unfold k1_pay1
  show shapeCast S5000x128 S shapeCasts_S5000x128_S5000x128 (ix2 p q)
      + (matmul (F := Ideal) dot_S5000x128_S128x128_S5000x128_1_0_0_1_n_n none (truncf .bf16 x bitsLt_bf16_f32)
            (truncf .bf16 W bitsLt_bf16_f32) (constant (F := Ideal) S5000x128 .f32 0x00000000#32) (ix2 p q)
          + broadcastTo S5000x128 (shapeCast S1x128 bv shapeCasts_S128_S1x128) broadcasts_S1x128_S5000x128 (ix2 p q)) = _
  rw [shapeCast_self, product_apply, bias_apply]

/-! ## The index maps over the grid -/

/-- The printed index maps, decided over the ten points: the sums', the features' and the output's block is block
    `(t, 0)`; the weight's and the bias' block is the whole array. -/
theorem index_facts : ∀ t : Fin cfg1.N, win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0 :=
  (by decide +kernel : ∀ t : Fin grid1.N, _)

/-- There are ten points. -/
theorem point_lt (t : Fin cfg1.N) : t.val < 10 :=
  Nat.lt_of_lt_of_eq t.isLt (show cfg1.N = 10 from N_1)

/-! ## The blocks as entries of the arrays -/

/-- Block `t` of the scattered sums at `(p, q)` is the array's entry `(5000 t + p, q)`. -/
theorem sums_block_apply (c : Dev nD) (t : Fin cfg1.N) (p : Fin 5000) (q : Fin 128) (n : Fin 50000)
    (hn : n.val = 5000 * t.val + p.val) :
    (iblk1 V c 0 t : Vec Ideal S5000x128 .f32) (ix2 p q) = (V c main_v36 : S50000x128.Idx → EReal) (ix2 n q) := by
  obtain ⟨-, -, e0, e1, -⟩ := index_facts t
  unfold iblk1
  rw [View.read_apply]
  show V c main_v36 _ = V c main_v36 _
  congr 1
  funext a
  apply Fin.ext
  match a with
  | ⟨0, _⟩ => show win1_0.index t (0 : Fin 2) * 5000 + 1 * p.val = n.val; rw [e0, hn]; omega
  | ⟨1, _⟩ => show win1_0.index t (1 : Fin 2) * 128 + 1 * q.val = q.val; rw [e1]; omega

/-- Block `t` of the node features at `(p, k)` is the array's entry `(5000 t + p, k)`. -/
theorem features_block_apply (c : Dev nD) (t : Fin cfg1.N) (p : Fin 5000) (k : Fin 128) (n : Fin 50000)
    (hn : n.val = 5000 * t.val + p.val) :
    (iblk1 V c 1 t : Vec Ideal S5000x128 .f32) (ix2 p k) = (V c main_arg0 : S50000x128.Idx → EReal) (ix2 n k) := by
  obtain ⟨-, -, -, -, e0, e1, -⟩ := index_facts t
  unfold iblk1
  rw [View.read_apply]
  show V c main_arg0 _ = V c main_arg0 _
  congr 1
  funext a
  apply Fin.ext
  match a with
  | ⟨0, _⟩ => show win1_1.index t (0 : Fin 2) * 5000 + 1 * p.val = n.val; rw [e0, hn]; omega
  | ⟨1, _⟩ => show win1_1.index t (1 : Fin 2) * 128 + 1 * k.val = k.val; rw [e1]; omega

/-- The weight's block at every point is the whole weight. -/
theorem weight_block_apply (c : Dev nD) (t : Fin cfg1.N) (k q : Fin 128) :
    (iblk1 V c 2 t : Vec Ideal S128x128 .f32) (ix2 k q) = (V c main_arg1 : S128x128.Idx → EReal) (ix2 k q) := by
  obtain ⟨-, -, -, -, -, -, e0, e1, -⟩ := index_facts t
  unfold iblk1
  rw [View.read_apply]
  show V c main_arg1 _ = V c main_arg1 _
  congr 1
  funext a
  apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The bias' block at every point is the whole bias. -/
theorem bias_block_apply (c : Dev nD) (t : Fin cfg1.N) (q : Fin 128) :
    (iblk1 V c 3 t : Vec Ideal S128 .f32) (ix1 q) = (V c main_arg2 : S128.Idx → EReal) (ix1 q) := by
  obtain ⟨-, -, -, -, -, -, -, -, e0⟩ := index_facts t
  unfold iblk1
  rw [View.read_apply]
  show V c main_arg2 _ = V c main_arg2 _
  congr 1
  funext a
  apply Fin.ext
  match a with
  | ⟨0, _⟩ => show win1_3.index t (0 : Fin 1) * 128 + 1 * q.val = q.val; rw [e0]; omega

/-- The output's block `t` puts its entry `(p, q)` at the array's entry `(5000 t + p, q)`. -/
theorem out_block_emb (t : Fin cfg1.N) (p : Fin 5000) (q : Fin 128) (n : Fin 50000) (hn : n.val = 5000 * t.val + p.val) :
    (((cfg1.win 4).blk t).view.emb (ix2 p q) : S50000x128.Idx) = ix2 n q := by
  obtain ⟨e0, e1, -⟩ := index_facts t
  funext a
  apply Fin.ext
  match a with
  | ⟨0, _⟩ => show win1_4.index t (0 : Fin 2) * 5000 + 1 * p.val = n.val; rw [e0, hn]; omega
  | ⟨1, _⟩ => show win1_4.index t (1 : Fin 2) * 128 + 1 * q.val = q.val; rw [e1]; omega

/-! ## One entry of a block against one entry of the node array -/

/-- The node array at entry `(n, q)`, written out. -/
theorem nodeArray_apply (S X : GraphConv.SN.Idx → EReal) (Wm : GraphConv.SW.Idx → EReal) (b : GraphConv.SB.Idx → EReal)
    (n : Fin 50000) (q : Fin 128) :
    GraphConv.nodeArray S X Wm b (ix2 n q)
      = S (ix2 n q) + ((∑ k : Fin 128, X (ix2 n k) * Wm (ix2 k q)) + b (ix1 q)) := rfl

/-- When the blocks' entries on row `p` are the arrays' entries on row `n` (the sums' at `(p, q)`, the features' along
    row `p`, the weight's down column `q`, the bias' at `q`), the payload at `(p, q)` is the node array at `(n, q)`. -/
theorem entry_eq (Sb xb : Vec Ideal S5000x128 .f32) (Wb : Vec Ideal S128x128 .f32) (bb : Vec Ideal S128 .f32)
    (S X : GraphConv.SN.Idx → EReal) (Wm : GraphConv.SW.Idx → EReal) (b : GraphConv.SB.Idx → EReal)
    (p : Fin 5000) (q : Fin 128) (n : Fin 50000)
    (hS : Sb (ix2 p q) = S (ix2 n q)) (hx : ∀ k : Fin 128, xb (ix2 p k) = X (ix2 n k))
    (hW : ∀ k : Fin 128, Wb (ix2 k q) = Wm (ix2 k q)) (hb : bb (ix1 q) = b (ix1 q)) :
    k1_pay1 (F := Ideal) xb Wb bb Sb (ix2 p q) = GraphConv.nodeArray S X Wm b (ix2 n q) := by
  rw [payload_apply, nodeArray_apply, hS, hb]
  simp only [hx, hW]

/-! ## What a point writes back -/

/-- A rank-2 block read or stored from its origin: both offsets are zero. -/
theorem origin2 : (![0, 0] : Fin 2 → Nat) = fun _ => 0 := funext fun a => by fin_cases a <;> rfl

/-- A rank-1 block read from its origin. -/
theorem origin1 : (![0] : Fin 1 → Nat) = fun _ => 0 := funext fun a => by fin_cases a <;> rfl

/-- WHAT POINT `t` WRITES BACK is block `t` of the node array of the arrays as the region finds them. -/
theorem flushed_eq (c : Dev nD) (t : Fin cfg1.N) :
    (dat1 (F := Ideal) V c).flushed 4 t = ((cfg1.win 4).blk t).view.read (Elt Ideal)
      (GraphConv.nodeArray (V c main_v36) (V c main_arg0) (V c main_arg1) (V c main_arg2)) := by
  show (cfg1.win 4).cut (grid1.coords t) ((dat1 V c).after 4 t) = _
  rw [after1_4]
  unfold out1_4
  rw [View.canon_unit_zero origin2]
  simp only [View.ld_unit_zero (S := S5000x128) origin2, View.ld_unit_zero (S := S128x128) origin2,
    View.ld_unit_zero (S := S128) origin1]
  funext j
  obtain ⟨p, q, rfl⟩ : ∃ (p : Fin 5000) (q : Fin 128), j = ix2 p q := ⟨j 0, j 1, eq_ix2 j⟩
  obtain ⟨n, hn⟩ : ∃ n : Fin 50000, n.val = 5000 * t.val + p.val :=
    ⟨⟨5000 * t.val + p.val, by have := point_lt t; have := p.isLt; omega⟩, rfl⟩
  show k1_pay1 (F := Ideal) (iblk1 V c 1 t) (iblk1 V c 2 t) (iblk1 V c 3 t) (iblk1 V c 0 t) (ix2 p q)
      = GraphConv.nodeArray (V c main_v36) (V c main_arg0) (V c main_arg1) (V c main_arg2)
          (((cfg1.win 4).blk t).view.emb (ix2 p q))
  rw [out_block_emb t p q n hn]
  exact entry_eq (iblk1 V c 0 t) (iblk1 V c 1 t) (iblk1 V c 2 t) (iblk1 V c 3 t)
    (V c main_v36) (V c main_arg0) (V c main_arg1) (V c main_arg2) p q n
    (sums_block_apply V c t p q n hn) (fun k => features_block_apply V c t p k n hn)
    (fun k => weight_block_apply V c t k q) (bias_block_apply V c t q)

/-! ## The blocks tile the nodes -/

/-- An entry of the array is in point `t`'s block iff each coordinate is in the block's range on its axis. -/
theorem mem_block (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v37).slice (win1_4.rect t)).set ↔ _
  rw [View.set_slice_whole, Rect.mem_set_unit]
  exact Iff.rfl

/-- EVERY ENTRY IS WRITTEN: node `r` lies in block `r / 5000` (50000 = 10 · 5000), every feature in the block's one
    column of 128, and every point writes its block back. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, Nat.lt_of_lt_of_eq (by omega) (show cfg1.N = 10 from N_1).symm⟩, rfl⟩
  obtain ⟨e0, e1, -⟩ := index_facts t
  refine ⟨t, flush1_4 t, ?_⟩
  rw [mem_block]
  intro a
  match a with
  | ⟨0, _⟩ =>
    show win1_4.index t (0 : Fin 2) * 5000 ≤ (i 0).val ∧ (i 0).val < win1_4.index t (0 : Fin 2) * 5000 + 5000
    rw [e0, ht]; omega
  | ⟨1, _⟩ =>
    show win1_4.index t (1 : Fin 2) * 128 ≤ (i 1).val ∧ (i 1).val < win1_4.index t (1 : Fin 2) * 128 + 128
    rw [e1]; omega

/-- THE OUTPUT ARRAY after the region: the scattered sums plus each node's own term, of the arrays as entered. -/
theorem array_eq (c : Dev nD) :
    (dat1 (F := Ideal) V c).arrAt 4 cfg1.N
      = GraphConv.nodeArray (V c main_v36) (V c main_arg0) (V c main_arg1) (V c main_arg2) :=
  (dat1 (F := Ideal) V c).arrAt_eq_of_cover 4
    (GraphConv.nodeArray (V c main_v36) (V c main_arg0) (V c main_arg1) (V c main_arg2))
    (fun t _ => flushed_eq V c t) (fun i => cover i)

end Cert.KernelIdeal.NodeRegion

end
-- ==== Proof.MessageRegion.lean ====
/-
  The message kernel's output array.

  The kernel runs over 147 blocks of 4096 padded edges. At block `t` it reads block `t` of the two gathered feature
  arrays, the gate's two weight halves, the weight and the two biases, and stores
  `σ(xr · Wg₁ + xc · Wg₂ + bg) · (xc · W + b)` into block `t` of the output. The blocks tile the 602112 padded edges, so
  after the last block the output array is that gated message entry by entry, of the arrays as the region finds them.
  The narrowing of the matrix unit's operands to bf16 is the identity on the extended reals, each product into a zero
  accumulator is the plain sum, and `tpu.logistic` is `1 / (1 + e^(−z))` there.
-/
import proofs.«141582_j7275674599728_1_alg».proof.Proof.Gen.KernelIdeal.Frame
import proofs.«141582_j7275674599728_1_alg».proof.Proof.Spec
import proofs.«141582_j7275674599728_1_alg».proof.Proof.LibMatmulPlain
import Idealize.ShloMosaic.Lib.Pipeline.Value
import Idealize.ShloMosaic.Lib.ValueLayout
set_option maxRecDepth 16384

noncomputable section

open scoped BigOperators
open Idealize.ShloMosaic Idealize.ShloMosaic.TcCoe Idealize.SL.Sem Idealize.ShloMosaic.ValueIdx
open Idealize.ShloMosaic.Pipeline (Dat Cfg Window)
open Cert.KernelIdeal Cert.KernelIdeal.Gen

namespace Cert.KernelIdeal.MessageRegion

variable (V : (c : Dev nD) → (b : Ref sig .tc) → Buf (Elt Ideal) ((c : Thread nD τ).loc b))

/-- The kernel's product dimension numbers are those of a plain [4096,128] by [128,128] product: contract the left
    operand's columns with the right operand's rows, no batch axis. -/
theorem dot_plain : dot_S4096x128_S128x128_S4096x128_1_0_0_1_n_n = DotDims.plain 4096 128 128 := rfl

/-- One product of the body into a zero accumulator, at entry `(p, q)`: the sum over `k` of `a[p, k] · b[k, q]`. -/
theorem prod_apply (a : FVec Ideal S4096x128 .bf16) (b : FVec Ideal S128x128 .bf16) (p : Fin 4096) (q : Fin 128) :
    matmul dot_S4096x128_S128x128_S4096x128_1_0_0_1_n_n none a b (constant (F := Ideal) S4096x128 .f32 0x00000000#32) (ix2 p q)
      = ∑ k : Fin 128, a (ix2 p k) * b (ix2 k q) := by
  rw [dot_plain]
  exact Cert.MatmulPlain.matmul_zero_apply none a b p q

/-- A bias `[128]` laid as one row and broadcast down the block's 4096 rows reads, at `(p, q)`, the bias at `q`. -/
theorem bias_apply (v : Vec Ideal S128 .f32) (p : Fin 4096) (q : Fin 128) :
    broadcastTo S4096x128 (shapeCast S1x128 v shapeCasts_S128_S1x128) broadcasts_S1x128_S4096x128 (ix2 p q) = v (ix1 q) :=
  (broadcastTo_1b_ab_apply _ broadcasts_S1x128_S4096x128 p q).trans (shapeCast_a_1a_apply v shapeCasts_S128_S1x128 0 q)

/-- THE BODY'S VALUE at entry `(p, q)` of its block: the gated message of row `p` of the two feature blocks through
    column `q` of the three weights and entry `q` of the two biases. Narrowing to bf16 is the identity on the extended
    reals, a cast to the same shape is the identity, each product into zero is the plain sum, and the pointwise
    operations read entry by entry. -/
theorem payload_apply (x0 x1 : Vec Ideal S4096x128 .f32) (w1 w2 w : Vec Ideal S128x128 .f32) (bg b : Vec Ideal S128 .f32)
    (p : Fin 4096) (q : Fin 128) :
    k0_pay1 (F := Ideal) x0 x1 w1 w2 w bg b (ix2 p q)
      = GraphConv.gated (fun k => x0 (ix2 p k)) (fun k => x1 (ix2 p k)) (fun k => w1 (ix2 k q)) (fun k => w2 (ix2 k q))
          (fun k => w (ix2 k q)) (bg (ix1 q)) (b (ix1 q)) := by
  unfold k0_pay1 GraphConv.gated
  rw [shapeCast_self, shapeCast_self, shapeCast_self, shapeCast_self]
  show Ideal.logistic ((matmul (F := Ideal) _ none _ _ _ (ix2 p q) + matmul (F := Ideal) _ none _ _ _ (ix2 p q)) + broadcastTo S4096x128 _ _ (ix2 p q))
      * (matmul (F := Ideal) _ none _ _ _ (ix2 p q) + broadcastTo S4096x128 _ _ (ix2 p q)) = _
  rw [prod_apply, prod_apply, prod_apply, bias_apply, bias_apply]
  rfl

/-! ## The index maps, and each window's block as entries of its array -/

/-- A whole block starts at the origin of its buffer: both offsets are zero. -/
theorem origin2 : (![0, 0] : Fin 2 → Nat) = fun _ => 0 := funext fun a => by fin_cases a <;> rfl
/-- The same for a bias vector's one axis. -/
theorem origin1 : (![0] : Fin 1 → Nat) = fun _ => 0 := funext fun a => by fin_cases a; rfl

/-- The printed index maps, decided over the 147 points: the two feature windows and the output are at block `(t, 0)`,
    the three weights and the two biases stay at block `0`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 1) = 0
    ∧ win0_7.index t (0 : Fin 2) = t.val ∧ win0_7.index t (1 : Fin 2) = 0 :=
  (by decide +kernel : ∀ t : Fin grid0.N, _)

/-- Block `t` of the first gathered rows: entry `(p, k)` is the array's entry `(4096 t + p, k)`. -/
theorem first_rows (c : Dev nD) (t : Fin cfg0.N) (p : Fin 4096) (k : Fin 128) (r : Fin 602112)
    (hr : r.val = t.val * 4096 + p.val) :
    (iblk0 V c 0 t : Vec Ideal S4096x128 .f32) (ix2 p k) = (V c main_v12 : S602112x128.Idx → EReal) (ix2 r k) := by
  obtain ⟨e0, e1, -⟩ := idx_facts t
  unfold iblk0
  rw [View.read_apply]
  show V c main_v12 _ = V c main_v12 _
  congr 1
  funext a
  apply Fin.ext
  match a with
  | ⟨0, _⟩ => show win0_0.index t (0 : Fin 2) * 4096 + 1 * p.val = r.val; rw [e0, hr]; omega
  | ⟨1, _⟩ => show win0_0.index t (1 : Fin 2) * 128 + 1 * k.val = k.val; rw [e1]; omega

/-- Block `t` of the second gathered rows: entry `(p, k)` is the array's entry `(4096 t + p, k)`. -/
theorem second_rows (c : Dev nD) (t : Fin cfg0.N) (p : Fin 4096) (k : Fin 128) (r : Fin 602112)
    (hr : r.val = t.val * 4096 + p.val) :
    (iblk0 V c 1 t : Vec Ideal S4096x128 .f32) (ix2 p k) = (V c main_v19 : S602112x128.Idx → EReal) (ix2 r k) := by
  obtain ⟨-, -, e0, e1, -⟩ := idx_facts t
  unfold iblk0
  rw [View.read_apply]
  show V c main_v19 _ = V c main_v19 _
  congr 1
  funext a
  apply Fin.ext
  match a with
  | ⟨0, _⟩ => show win0_1.index t (0 : Fin 2) * 4096 + 1 * p.val = r.val; rw [e0, hr]; omega
  | ⟨1, _⟩ => show win0_1.index t (1 : Fin 2) * 128 + 1 * k.val = k.val; rw [e1]; omega

/-- The gate weight's first half is resident: its block at every point is the whole array. -/
theorem gate_first (c : Dev nD) (t : Fin cfg0.N) (k q : Fin 128) :
    (iblk0 V c 2 t : Vec Ideal S128x128 .f32) (ix2 k q) = (V c main_v20 : S128x128.Idx → EReal) (ix2 k q) := by
  obtain ⟨-, -, -, -, e0, e1, -⟩ := idx_facts t
  unfold iblk0
  rw [View.read_apply]
  show V c main_v20 _ = V c main_v20 _
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The gate weight's second half is resident. -/
theorem gate_second (c : Dev nD) (t : Fin cfg0.N) (k q : Fin 128) :
    (iblk0 V c 3 t : Vec Ideal S128x128 .f32) (ix2 k q) = (V c main_v21 : S128x128.Idx → EReal) (ix2 k q) := by
  obtain ⟨-, -, -, -, -, -, e0, e1, -⟩ := idx_facts t
  unfold iblk0
  rw [View.read_apply]
  show V c main_v21 _ = V c main_v21 _
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The weight is resident. -/
theorem weight_whole (c : Dev nD) (t : Fin cfg0.N) (k q : Fin 128) :
    (iblk0 V c 4 t : Vec Ideal S128x128 .f32) (ix2 k q) = (V c main_arg1 : S128x128.Idx → EReal) (ix2 k q) := by
  obtain ⟨-, -, -, -, -, -, -, -, e0, e1, -⟩ := idx_facts t
  unfold iblk0
  rw [View.read_apply]
  show V c main_arg1 _ = V c main_arg1 _
  congr 1
  funext a
  apply Fin.ext
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The gate's bias is resident. -/
theorem gate_bias (c : Dev nD) (t : Fin cfg0.N) (q : Fin 128) :
    (iblk0 V c 5 t : Vec Ideal S128 .f32) (ix1 q) = (V c main_arg4 : S128.Idx → EReal) (ix1 q) := by
  obtain ⟨-, -, -, -, -, -, -, -, -, -, e0, -⟩ := idx_facts t
  unfold iblk0
  rw [View.read_apply]
  show V c main_arg4 _ = V c main_arg4 _
  congr 1
  funext a
  apply Fin.ext
  match a with
  | ⟨0, _⟩ => show win0_5.index t (0 : Fin 1) * 128 + 1 * q.val = q.val; rw [e0]; omega

/-- The bias is resident. -/
theorem bias_whole (c : Dev nD) (t : Fin cfg0.N) (q : Fin 128) :
    (iblk0 V c 6 t : Vec Ideal S128 .f32) (ix1 q) = (V c main_arg2 : S128.Idx → EReal) (ix1 q) := by
  obtain ⟨-, -, -, -, -, -, -, -, -, -, -, e0, -⟩ := idx_facts t
  unfold iblk0
  rw [View.read_apply]
  show V c main_arg2 _ = V c main_arg2 _
  congr 1
  funext a
  apply Fin.ext
  match a with
  | ⟨0, _⟩ => show win0_6.index t (0 : Fin 1) * 128 + 1 * q.val = q.val; rw [e0]; omega

/-- Entry `(p, q)` of the output's block `t` sits at `(4096 t + p, q)` of the output array. -/
theorem out_entry (t : Fin cfg0.N) (p : Fin 4096) (q : Fin 128) (r : Fin 602112) (hr : r.val = t.val * 4096 + p.val) :
    (((cfg0.win 7).blk t).view.emb (ix2 p q) : S602112x128.Idx) = ix2 r q := by
  obtain ⟨-, -, -, -, -, -, -, -, -, -, -, -, e0, e1⟩ := idx_facts t
  funext a
  apply Fin.ext
  match a with
  | ⟨0, _⟩ => show win0_7.index t (0 : Fin 2) * 4096 + 1 * p.val = r.val; rw [e0, hr]; omega
  | ⟨1, _⟩ => show win0_7.index t (1 : Fin 2) * 128 + 1 * q.val = q.val; rw [e1]; omega

/-- Two gated messages agree when their rows, weight columns and bias entries agree. -/
theorem gated_congr {xr xr' xc xc' wg1 wg1' wg2 wg2' wv wv' : Fin 128 → EReal} {bgq bgq' bq bq' : EReal}
    (h1 : xr = xr') (h2 : xc = xc') (h3 : wg1 = wg1') (h4 : wg2 = wg2') (h5 : wv = wv') (h6 : bgq = bgq') (h7 : bq = bq') :
    GraphConv.gated xr xc wg1 wg2 wv bgq bq = GraphConv.gated xr' xc' wg1' wg2' wv' bgq' bq' := by
  subst h1 h2 h3 h4 h5 h6 h7; rfl

/-! ## What a point writes back, and the array after the last point -/

/-- WHAT POINT `t` WRITES BACK is block `t` of the gated message array of the arrays as the region finds them. -/
theorem flushed_eq (c : Dev nD) (t : Fin cfg0.N) :
    (dat0 (F := Ideal) V c).flushed 7 t = ((cfg0.win 7).blk t).view.read (Elt Ideal)
      (GraphConv.messageArray (V c main_v12) (V c main_v19) (V c main_v20) (V c main_v21) (V c main_arg1) (V c main_arg4) (V c main_arg2)) := by
  show (cfg0.win 7).cut (grid0.coords t) ((dat0 V c).after 7 t) = _
  rw [after0_7]
  unfold out0_7
  rw [View.canon_unit_zero origin2]
  simp only [View.ld_unit_zero (S := S4096x128) origin2, View.ld_unit_zero (S := S128x128) origin2, View.ld_unit_zero (S := S128) origin1]
  funext j
  obtain ⟨p, q, rfl⟩ : ∃ (p : Fin 4096) (q : Fin 128), j = ix2 p q := ⟨j 0, j 1, eq_ix2 j⟩
  have ht : t.val < 147 := lt_of_lt_of_eq t.isLt N_0
  have hp : p.val < 4096 := p.isLt
  have hr : (⟨t.val * 4096 + p.val, by omega⟩ : Fin 602112).val = t.val * 4096 + p.val := rfl
  show k0_pay1 (F := Ideal) (iblk0 V c 0 t) (iblk0 V c 1 t) (iblk0 V c 2 t) (iblk0 V c 3 t) (iblk0 V c 4 t) (iblk0 V c 5 t) (iblk0 V c 6 t) (ix2 p q)
      = GraphConv.messageArray (V c main_v12) (V c main_v19) (V c main_v20) (V c main_v21) (V c main_arg1) (V c main_arg4) (V c main_arg2)
          (((cfg0.win 7).blk t).view.emb (ix2 p q))
  refine (payload_apply (iblk0 V c 0 t) (iblk0 V c 1 t) (iblk0 V c 2 t) (iblk0 V c 3 t) (iblk0 V c 4 t) (iblk0 V c 5 t) (iblk0 V c 6 t) p q).trans ?_
  refine Eq.trans ?_ (congrArg (GraphConv.messageArray (V c main_v12) (V c main_v19) (V c main_v20) (V c main_v21) (V c main_arg1) (V c main_arg4) (V c main_arg2))
    (out_entry t p q ⟨t.val * 4096 + p.val, by omega⟩ hr)).symm
  exact gated_congr (funext fun k => first_rows V c t p k _ hr) (funext fun k => second_rows V c t p k _ hr)
    (funext fun k => gate_first V c t k q) (funext fun k => gate_second V c t k q) (funext fun k => weight_whole V c t k q)
    (gate_bias V c t q) (bias_whole V c t q)

/-- An index of the output array is in point `t`'s block iff each coordinate is in the block's range on its axis. -/
theorem mem_blk (t : Fin cfg0.N) (i : S602112x128.Idx) :
    i ∈ ((cfg0.win 7).blk t).view.set ↔ ∀ a : Fin 2, win0_7.index t a * S4096x128.size a ≤ (i a).val ∧ (i a).val < win0_7.index t a * S4096x128.size a + S4096x128.size a := by
  show i ∈ ((View.whole main_v22).slice (win0_7.rect t)).set ↔ _
  rw [View.set_slice_whole, Rect.mem_set_unit]
  exact Iff.rfl

/-- THE BLOCKS TILE THE ARRAY: row `r` of the 602112 = 147 · 4096 padded edges is in block `r / 4096`, which is written back. -/
theorem cover (i : S602112x128.Idx) :
    ∃ t : Fin cfg0.N, (cfg0.win 7).flush t = true ∧ i ∈ ((cfg0.win 7).blk t).view.set := by
  have hi0 : (i 0).val < 602112 := (i 0).isLt
  have hi1 : (i 1).val < 128 := (i 1).isLt
  have hN : cfg0.N = 147 := N_0
  refine ⟨⟨(i 0).val / 4096, by rw [hN]; omega⟩, flush0_7 _, ?_⟩
  rw [mem_blk]
  obtain ⟨-, -, -, -, -, -, -, -, -, -, -, -, e0, e1⟩ := idx_facts ⟨(i 0).val / 4096, by rw [hN]; omega⟩
  intro a
  match a with
  | ⟨0, _⟩ =>
    show win0_7.index _ (0 : Fin 2) * 4096 ≤ (i 0).val ∧ (i 0).val < win0_7.index _ (0 : Fin 2) * 4096 + 4096
    rw [e0]
    show (i 0).val / 4096 * 4096 ≤ (i 0).val ∧ (i 0).val < (i 0).val / 4096 * 4096 + 4096
    omega
  | ⟨1, _⟩ =>
    show win0_7.index _ (1 : Fin 2) * 128 ≤ (i 1).val ∧ (i 1).val < win0_7.index _ (1 : Fin 2) * 128 + 128
    rw [e1]
    omega

/-- THE OUTPUT ARRAY after the region: the gated message of every padded edge, of the arrays as entered. -/
theorem array_eq (c : Dev nD) :
    (dat0 (F := Ideal) V c).arrAt 7 cfg0.N
      = GraphConv.messageArray (V c main_v12) (V c main_v19) (V c main_v20) (V c main_v21) (V c main_arg1) (V c main_arg4) (V c main_arg2) :=
  (dat0 (F := Ideal) V c).arrAt_eq_of_cover 7 _ (fun t _ => flushed_eq V c t) cover

end Cert.KernelIdeal.MessageRegion

end
-- ==== Proof.LibRowIndexing.lean ====
/-
  Row indexing read at one entry.

  `x[idx]` along axis 0 of an `[N, D]` array with `R` indices lowers to a gather whose start indices are `[R, 1]`, whose
  slices are whole rows, and whose result is `[R, D]`; `y.at[idx].add(u)` lowers to the scatter with the matching dimension
  numbers. At entry `(r, q)` the gather reads the operand's row named by the index word at `(r, 0)`, read signed and
  clamped into `[0, N − 1]`, at column `q`; the scatter's update `(r, q)` lands on row `idx[r, 0]` (read signed, not
  clamped) at column `q` when that row exists, and is dropped when it does not.
-/
import Idealize.ShloMosaic.PureOps.Ideal.Laws
import Idealize.ShloMosaic.Lib.ValueIdx

noncomputable section

open Idealize.ShloMosaic Idealize.ShloMosaic.ValueIdx

namespace Cert.RowIndexing

variable {α : Type} {N R D w : Nat}

/-- The gather's dimension numbers for `x[idx]` along axis 0: operand `[N, D]`, start indices `[R, 1]`, result `[R, D]`;
    their conditions `wf` are decided on a program's literal shapes. -/
abbrev gatherDims (N R D : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(r, q)`: the operand at row `idx[r, 0]` (read signed, clamped into `[0, N − 1]`), column `q`. -/
theorem gather_apply (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (q : Fin D) :
    Host.gather (gatherDims N R D wf) x idx (ix2 r q)
      = x (ix2 ⟨min (idx (ix2 r ⟨0, Nat.one_pos⟩)).toInt.toNat (N - 1), by omega⟩ q) := by
  unfold Host.gather
  congr 1
  funext a
  refine Fin.ext ?_
  match a with
  | ⟨0, _⟩ =>
    -- axis 0 is collapsed and named by the start index map: the coordinate is the clamped start alone
    show (gatherDims N R D wf).start (ix2 r q) idx 0 + (gatherDims N R D wf).batchCoord (ix2 r q) 0
      + (gatherDims N R D wf).offCoord (ix2 r q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N R D wf).startIndexMap from List.mem_singleton.mpr rfl)]
    have hsi : (gatherDims N R D wf).siIdx (ix2 r q) ⟨List.idxOf (0 : Fin 2) (gatherDims N R D wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl
  | ⟨1, _⟩ =>
    -- axis 1 is the offset axis: start 0 (not in the start index map), no batching, offset coordinate q
    show (gatherDims N R D wf).start (ix2 r q) idx 1 + (gatherDims N R D wf).batchCoord (ix2 r q) 1
      + (gatherDims N R D wf).offCoord (ix2 r q) 1 = q.val
    have h10 : (1 : Fin 2) ≠ 0 := by decide
    have h1 : (1 : Fin 2) ∉ (gatherDims N R D wf).startIndexMap := fun h => h10 (List.mem_singleton.mp h)
    have hk : (1 : Fin 2) ∈ (gatherDims N R D wf).sKept := by
      rw [GatherDims.mem_sKept]; exact ⟨fun h => h10 (List.mem_singleton.mp h), List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-- The scatter's dimension numbers for `y.at[idx].add(u)` along axis 0: operand `[N, D]`, scatter indices `[R, 1]`,
    updates `[R, D]`. -/
abbrev scatterDims (N R D : Nat)
    (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

/-- WHERE UPDATE `(r, q)` LANDS: row `idx[r, 0]` read signed, column `q`, when `0 ≤ idx[r, 0] < N`; nowhere otherwise. -/
theorem resultIdx?_apply
    (wf : ScatterDims.WF ⟨2, ![N, D]⟩ ⟨2, ![R, 1]⟩ ⟨2, ![R, D]⟩ [1] [0] [0] 1)
    (idx : IVec ⟨2, ![R, 1]⟩ w) (r : Fin R) (q : Fin D) :
    (scatterDims N R D wf).resultIdx? (ix2 r q) idx
      = if h : 0 ≤ (idx (ix2 r ⟨0, Nat.one_pos⟩)).toInt ∧ (idx (ix2 r ⟨0, Nat.one_pos⟩)).toInt < N then
          some (ix2 ⟨(idx (ix2 r ⟨0, Nat.one_pos⟩)).toInt.toNat, by omega⟩ q)
        else none := by
  have h10 : (1 : Fin 2) ≠ 0 := by decide
  have hmem0 : (0 : Fin 2) ∈ (scatterDims N R D wf).scatterDimsToOperandDims := List.mem_singleton.mpr rfl
  -- membership in the operand's kept axes is non-membership in the inserted axes
  have hkept : ∀ a : Fin 2, a ∈ (scatterDims N R D wf).sKept ↔ a ∉ (scatterDims N R D wf).insertedWindowDims := by
    intro a; simp [ScatterDims.sKept, Shape.kept, List.mem_filter, List.mem_finRange]
  -- axis 0 is named by the map: its start is the index word at (r, 0), read signed
  have hs0 : (scatterDims N R D wf).start (ix2 r q) idx 0 = (idx (ix2 r ⟨0, Nat.one_pos⟩)).toInt := by
    unfold ScatterDims.start
    rw [dif_pos hmem0]
    have hsi : (scatterDims N R D wf).siIdx (ix2 r q) ⟨List.idxOf (0 : Fin 2) (scatterDims N R D wf).scatterDimsToOperandDims,
        List.idxOf_lt_length_iff.2 hmem0⟩ = ix2 r ⟨0, Nat.one_pos⟩ := by
      funext b; refine Fin.ext ?_
      match b with
      | ⟨0, _⟩ => rfl
      | ⟨1, _⟩ => rfl
    rw [hsi]
  -- axis 0 is inserted: no window coordinate
  have hw0 : (scatterDims N R D wf).window (ix2 r q) 0 = 0 := by
    unfold ScatterDims.window
    rw [dif_neg (fun h => ((hkept 0).mp h) (List.mem_singleton.mpr rfl))]
  -- axis 1 is not named by the map: start 0
  have hs1 : (scatterDims N R D wf).start (ix2 r q) idx 1 = 0 := by
    unfold ScatterDims.start
    rw [dif_neg (fun h => h10 (List.mem_singleton.mp h))]
  -- axis 1 is the one kept axis: its window coordinate is the update's coordinate on window axis 1
  have hw1 : (scatterDims N R D wf).window (ix2 r q) 1 = q.val := by
    unfold ScatterDims.window
    rw [dif_pos ((hkept 1).mpr (fun h => h10 (List.mem_singleton.mp h)))]
    rfl
  unfold ScatterDims.resultIdx?
  -- the landing index depends on the dimension numbers only through the four facts above
  generalize scatterDims N R D wf = d at hs0 hw0 hs1 hw1 ⊢
  have hall : (∀ a : Fin 2, 0 ≤ d.start (ix2 r q) idx a + (d.window (ix2 r q) a : Int) ∧
      d.start (ix2 r q) idx a + (d.window (ix2 r q) a : Int) < ((⟨2, ![N, D]⟩ : Shape).size a : Int)) ↔
      (0 ≤ (idx (ix2 r ⟨0, Nat.one_pos⟩)).toInt ∧ (idx (ix2 r ⟨0, Nat.one_pos⟩)).toInt < (N : Int)) := by
    constructor
    · intro h
      have h0 := h 0
      rw [hs0, hw0] at h0
      have hN : ((⟨2, ![N, D]⟩ : Shape).size 0) = N := rfl
      rw [hN] at h0
      omega
    · intro h a
      match a with
      | ⟨0, _⟩ =>
        show 0 ≤ d.start (ix2 r q) idx 0 + (d.window (ix2 r q) 0 : Int) ∧
          d.start (ix2 r q) idx 0 + (d.window (ix2 r q) 0 : Int) < (N : Int)
        rw [hs0, hw0]; omega
      | ⟨1, _⟩ =>
        show 0 ≤ d.start (ix2 r q) idx 1 + (d.window (ix2 r q) 1 : Int) ∧
          d.start (ix2 r q) idx 1 + (d.window (ix2 r q) 1 : Int) < (D : Int)
        rw [hs1, hw1]; have := q.isLt; omega
  by_cases h : 0 ≤ (idx (ix2 r ⟨0, Nat.one_pos⟩)).toInt ∧ (idx (ix2 r ⟨0, Nat.one_pos⟩)).toInt < (N : Int)
  · -- the row exists: both sides are `some`, and the two indices agree coordinate by coordinate
    rw [dif_pos h, dif_pos (hall.mpr h)]
    congr 1
    funext a
    refine Fin.ext ?_
    match a with
    | ⟨0, _⟩ =>
      show (d.start (ix2 r q) idx 0 + (d.window (ix2 r q) 0 : Int)).toNat = (idx (ix2 r ⟨0, Nat.one_pos⟩)).toInt.toNat
      rw [hs0, hw0]; simp
    | ⟨1, _⟩ =>
      show (d.start (ix2 r q) idx 1 + (d.window (ix2 r q) 1 : Int)).toNat = q.val
      rw [hs1, hw1]; simp
  · -- the row does not exist: axis 0 fails the range condition, so the update is dropped
    rw [dif_neg h, dif_neg (fun hh => h (hall.mp hh))]

end Cert.RowIndexing

end
-- ==== Proof.BeforeMessages.lean ====
/-
  What the message kernel finds: the host operations before the first region, read entry by entry.

  The two rows of the edge list are cut out, reshaped to vectors and padded with 2112 zeros; each padded word is
  normalised (a negative word counts from the end), and the node features are gathered at the normalised words: padded
  edge `e` gets row `rowOf (normW word)` of `x`. The gate's weight is cut into its first and last 128 rows. The
  weight and the two biases are arguments, untouched.
-/
import proofs.«141582_j7275674599728_1_alg».proof.Proof.Gen.KernelIdeal.Frame
import proofs.«141582_j7275674599728_1_alg».proof.Proof.Spec
import proofs.«141582_j7275674599728_1_alg».proof.Proof.LibRowIndexing
import Idealize.ShloMosaic.Lib.Pipeline.Value
import Idealize.ShloMosaic.Lib.KernelVsHost
import Idealize.ShloMosaic.Lib.StableHlo.Run
set_option maxRecDepth 16384

noncomputable section

open scoped BigOperators
open Idealize.ShloMosaic Idealize.ShloMosaic.TcCoe Idealize.SL.Sem Idealize.ShloMosaic.ValueIdx
open Idealize.ShloMosaic.Pipeline (Dat Cfg Window)
open Cert.KernelIdeal Cert.KernelIdeal.Gen

namespace Cert.KernelIdeal.BeforeMessages

open Cert.GraphConv

variable (m : (ℓ : Loc nD τ sig) → Buf (Elt Ideal) ℓ) (ρ : Dev nD → PrngReg)

/-- The edge list's row `a` as a function of the edge. -/
abbrev words (c : Dev nD) (a : Fin 2) : Fin 600000 → BitVec 32 := edgeW (m ((c : Thread nD τ).loc main_arg5)) a

/-- A stretch of operations none of which writes a buffer leaves that buffer's contents as they were. -/
local macro "keeps " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## The arguments are as launched: no operation before the region writes one -/

theorem features_W4 (c : Dev nD) : W4 m ρ c (Proc.devRef .tc main_arg0) = m ((c : Thread nD τ).loc main_arg0) :=
  calc W4 m ρ c (Proc.devRef .tc main_arg0)
    _ = W3 m ρ c (Proc.devRef .tc main_arg0) := by keeps hostOps0_3
    _ = W2 m ρ c (Proc.devRef .tc main_arg0) := by keeps hostOps0_2
    _ = W1 m ρ c (Proc.devRef .tc main_arg0) := by keeps hostOps0_1
    _ = W0 m ρ c (Proc.devRef .tc main_arg0) := by keeps hostOps0
    _ = m ((c : Thread nD τ).loc main_arg0) := rfl

/-! ## The padded rows of the edge list -/

/-- Row `a` of a `[2, 600000]` array, cut out, flattened and padded with 2112 copies of `z`, read at position `e`:
    the array's entry `(a, e)` below 600000, and `z` from there on. -/
theorem padded_row {α : Type} (off : Fin 2 → Nat) (a : Fin 2) (h0 : off 0 = a.val) (h1 : off 1 = 0)
    (hs : S2x600000.Slices off S1x600000) (x : S2x600000.Idx → α) (z : S_.Idx → α) (e : Fin 602112) :
    pad S602112 ![0] ![2112] ![0] (shapeCast S600000 (extractStridedSlice S1x600000 off x hs) shapeCasts_S1x600000_S600000) z
        pads_S600000_S602112_021120 h_S_ (ix1 e)
      = if h : e.val < 600000 then x (ix2 a ⟨e.val, h⟩) else z (Shape.Idx.first h_S_) := by
  split
  · rename_i h
    refine (pad_apply_of_inside (s := S600000) (t := S602112) ![0] ![2112] ![0] _ z pads_S600000_S602112_021120 h_S_ (ix1 e) (ix1 (⟨e.val, h⟩ : Fin 600000))
      (fun b => match b with | ⟨0, _⟩ => by show e.val = 0 + e.val * (0 + 1); omega)).trans ?_
    refine (shapeCast_apply (s := S1x600000) (t := S600000) _ shapeCasts_S1x600000_S600000 (ix1 (⟨e.val, h⟩ : Fin 600000))
      (ix2 (0 : Fin 1) (⟨e.val, h⟩ : Fin 600000))
      (by rewrite [Shape.rowMajor_val_two, Shape.rowMajor_val_one]; show 0 * 600000 + e.val = e.val; omega)).trans ?_
    exact extractStridedSlice_apply off x hs (ix2 (0 : Fin 1) (⟨e.val, h⟩ : Fin 600000)) (ix2 a ⟨e.val, h⟩)
      (fun b => match b with
        | ⟨0, _⟩ => by show a.val = off 0 + 0; omega
        | ⟨1, _⟩ => by show e.val = off 1 + e.val; omega)
  · rename_i h
    exact pad_apply_of_not_inside (s := S600000) (t := S602112) ![0] ![2112] ![0] _ z pads_S600000_S602112_021120 h_S_ (ix1 e) 0
      (by show ¬(0 ≤ e.val ∧ (e.val - 0) % (0 + 1) = 0 ∧ (e.val - 0) / (0 + 1) < 600000); omega)

/-- The padded first row of the edge list, when the second stretch ends. -/
theorem v4_W2 (c : Dev nD) (e : Fin 602112) : W2 m ρ c (Proc.devRef .tc main_v4) (ix1 e) = padW (words m c 0) e := by
  show StableHlo.after hostOps0_1 (StableHlo.after hostOps0 (W0 m ρ c)) (Proc.devRef .tc main_v4) (ix1 e) = _
  after_results
  dsimp only [StableHlo.TRef.toBuf, StableHlo.TRef.ofBuf, StableHlo.TRef.of, cast_eq, id]
  exact padded_row ![0, 0] 0 rfl rfl slices_S2x600000_S1x600000_0_0 _ _ e

/-- The padded second row of the edge list, when the fourth stretch ends. -/
theorem v5_W4 (c : Dev nD) (e : Fin 602112) : W4 m ρ c (Proc.devRef .tc main_v5) (ix1 e) = padW (words m c 1) e := by
  show StableHlo.after hostOps0_3 (StableHlo.after hostOps0_2 (StableHlo.after hostOps0_1 (StableHlo.after hostOps0 (W0 m ρ c))))
    (Proc.devRef .tc main_v5) (ix1 e) = _
  after_results
  dsimp only [StableHlo.TRef.toBuf, StableHlo.TRef.ofBuf, StableHlo.TRef.of, cast_eq, id]
  exact padded_row ![1, 0] 1 rfl rfl slices_S2x600000_S1x600000_1_0 _ _ e

/-- The third and fourth stretches do not write the padded first row. -/
theorem v4_W4 (c : Dev nD) : W4 m ρ c (Proc.devRef .tc main_v4) = W2 m ρ c (Proc.devRef .tc main_v4) :=
  calc W4 m ρ c (Proc.devRef .tc main_v4)
    _ = W3 m ρ c (Proc.devRef .tc main_v4) := by keeps hostOps0_3
    _ = W2 m ρ c (Proc.devRef .tc main_v4) := by keeps hostOps0_2

/-- Nor does the fifth. -/
theorem v4_W5 (c : Dev nD) : W5 m ρ c (Proc.devRef .tc main_v4) = W2 m ρ c (Proc.devRef .tc main_v4) :=
  (show W5 m ρ c (Proc.devRef .tc main_v4) = W4 m ρ c (Proc.devRef .tc main_v4) by keeps hostOps0_4).trans (v4_W4 m ρ c)

/-! ## The normalised words and the gathers -/

/-- A padded vector of words normalised entry by entry and turned into a column: row `e` of the column is the
    normalised word `e`. -/
theorem normalised_at (v : (⟨S602112, .i32⟩ : BufTy).Contents (Elt Ideal)) (e : Fin 602112) :
    broadcastInDim S602112x1 ![0] bcast_S602112_S602112x1_0
        (select (cmpi .slt v (broadcastInDim S602112 ![] bcast_S_S602112 (constantI S_ 32 0#32)))
          (addi v (broadcastInDim S602112 ![] bcast_S_S602112 (constantI S_ 32 50000#32))) v) (ix2 e ⟨0, Nat.one_pos⟩)
      = normW (v (ix1 e)) := by
  refine (broadcastInDim_apply _ bcast_S602112_S602112x1_0 _ (ix2 e ⟨0, Nat.one_pos⟩) (ix1 e) (fun a => match a with
    | ⟨0, _⟩ => by show e.val = if (602112 : Nat) = 1 then 0 else e.val; rw [if_neg (by decide)])).trans ?_
  show Scalar.select (IntOp.cmpi .slt (v (ix1 e)) (broadcastInDim S602112 ![] bcast_S_S602112 (constantI S_ 32 0#32) (ix1 e)))
      (IntOp.addi (v (ix1 e)) (broadcastInDim S602112 ![] bcast_S_S602112 (constantI S_ 32 50000#32) (ix1 e))) (v (ix1 e)) = _
  rw [broadcastInDim_apply _ bcast_S_S602112 (constantI S_ 32 0#32) (ix1 e) (fun a => a.elim0) (fun a => a.elim0),
    broadcastInDim_apply _ bcast_S_S602112 (constantI S_ 32 50000#32) (ix1 e) (fun a => a.elim0) (fun a => a.elim0)]
  rfl

/-- The row gather read at `(e, q)` when the index column's row `e` is the word `w`: the operand's row `rowOf w`. -/
theorem gather_row {α : Type} (x : S50000x128.Idx → α) (idx : IVec S602112x1 32) (e : Fin 602112) (q : Fin 128) (w : BitVec 32)
    (hw : idx (ix2 e ⟨0, Nat.one_pos⟩) = w) :
    Host.gather gather_S50000x128_S602112x1_S602112x128_1_0_n_n_0_1_1128 x idx (ix2 e q) = x (ix2 (rowOf w) q) := by
  subst hw
  have hd : gather_S50000x128_S602112x1_S602112x128_1_0_n_n_0_1_1128
      = Cert.RowIndexing.gatherDims 50000 602112 128 Facts₀.gather_S50000x128_S602112x1_S602112x128_1_0_n_n_0_1_1128_wf := rfl
  rw [hd, Cert.RowIndexing.gather_apply (by decide)]
  rfl

/-- The first gather at an explicit entry. -/
theorem gathered_rows_at (c : Dev nD) (e : Fin 602112) (q : Fin 128) :
    V5 m ρ c main_v12 (ix2 e q) = m ((c : Thread nD τ).loc main_arg0) (ix2 (rowOf (normW (padW (words m c 0) e))) q) := by
  have h0 := features_W4 m ρ c
  have hv : ∀ e, W4 m ρ c (Proc.devRef .tc main_v4) (ix1 e) = padW (words m c 0) e := fun e => by
    rw [v4_W4]; exact v4_W2 m ρ c e
  show StableHlo.after hostOps0_4 (W4 m ρ c) (Proc.devRef .tc main_v12) (ix2 e q) = _
  generalize W4 m ρ c = V at h0 hv ⊢
  after_results
  rw [h0]
  generalize V (Proc.devRef .tc main_v4) = v at hv ⊢
  exact gather_row _ _ e q _ ((normalised_at v e).trans (congrArg normW (hv e)))

/-- The second gather at an explicit entry. -/
theorem gathered_cols_at (c : Dev nD) (e : Fin 602112) (q : Fin 128) :
    V5 m ρ c main_v19 (ix2 e q) = m ((c : Thread nD τ).loc main_arg0) (ix2 (rowOf (normW (padW (words m c 1) e))) q) := by
  have h0 := features_W4 m ρ c
  have hv := v5_W4 m ρ c
  show StableHlo.after hostOps0_4 (W4 m ρ c) (Proc.devRef .tc main_v19) (ix2 e q) = _
  generalize W4 m ρ c = V at h0 hv ⊢
  after_results
  rw [h0]
  generalize V (Proc.devRef .tc main_v5) = v at hv ⊢
  exact gather_row _ _ e q _ ((normalised_at v e).trans (congrArg normW (hv e)))

/-- The first gathered array: padded edge `e` holds the node row its first endpoint names. -/
theorem gathered_rows (c : Dev nD) (p : SP.Idx) :
    V5 m ρ c main_v12 p = m ((c : Thread nD τ).loc main_arg0) (ix2 (rowOf (normW (padW (words m c 0) (p 0)))) (p 1)) :=
  (congrArg (V5 m ρ c main_v12) (eq_ix2 p)).trans (gathered_rows_at m ρ c (p 0) (p 1))

/-- The second gathered array: padded edge `e` holds the node row its second endpoint names. -/
theorem gathered_cols (c : Dev nD) (p : SP.Idx) :
    V5 m ρ c main_v19 p = m ((c : Thread nD τ).loc main_arg0) (ix2 (rowOf (normW (padW (words m c 1) (p 0)))) (p 1)) :=
  (congrArg (V5 m ρ c main_v19) (eq_ix2 p)).trans (gathered_cols_at m ρ c (p 0) (p 1))

/-- The gate weight's first half. -/
theorem gate_top (c : Dev nD) (k q : Fin 128) :
    V5 m ρ c main_v20 (ix2 k q) = m ((c : Thread nD τ).loc main_arg3) (ix2 ⟨k.val, by omega⟩ q) := by
  show StableHlo.after hostOps0_4 (W4 m ρ c) (Proc.devRef .tc main_v20) (ix2 k q) = _
  after_results
  exact extractStridedSlice_apply ![0, 0] _ slices_S256x128_S128x128_0_0 (ix2 k q) (ix2 (⟨k.val, by omega⟩ : Fin 256) q)
    (fun a => match a with
      | ⟨0, _⟩ => by show k.val = 0 + k.val; omega
      | ⟨1, _⟩ => by show q.val = 0 + q.val; omega)

/-- The gate weight's second half. -/
theorem gate_bottom (c : Dev nD) (k q : Fin 128) :
    V5 m ρ c main_v21 (ix2 k q) = m ((c : Thread nD τ).loc main_arg3) (ix2 ⟨128 + k.val, by omega⟩ q) := by
  show StableHlo.after hostOps0_4 (W4 m ρ c) (Proc.devRef .tc main_v21) (ix2 k q) = _
  after_results
  exact extractStridedSlice_apply ![128, 0] _ slices_S256x128_S128x128_128_0 (ix2 k q) (ix2 (⟨128 + k.val, by omega⟩ : Fin 256) q)
    (fun a => match a with
      | ⟨0, _⟩ => by show 128 + k.val = 128 + k.val; omega
      | ⟨1, _⟩ => by show q.val = 0 + q.val; omega)

/-- The weight and the biases are as launched when the region is entered. -/
theorem weight_kept (c : Dev nD) : V5 m ρ c main_arg1 = m ((c : Thread nD τ).loc main_arg1) :=
  calc W5 m ρ c (Proc.devRef .tc main_arg1)
    _ = W4 m ρ c (Proc.devRef .tc main_arg1) := by keeps hostOps0_4
    _ = W3 m ρ c (Proc.devRef .tc main_arg1) := by keeps hostOps0_3
    _ = W2 m ρ c (Proc.devRef .tc main_arg1) := by keeps hostOps0_2
    _ = W1 m ρ c (Proc.devRef .tc main_arg1) := by keeps hostOps0_1
    _ = W0 m ρ c (Proc.devRef .tc main_arg1) := by keeps hostOps0
    _ = m ((c : Thread nD τ).loc main_arg1) := rfl
theorem gate_bias_kept (c : Dev nD) : V5 m ρ c main_arg4 = m ((c : Thread nD τ).loc main_arg4) :=
  calc W5 m ρ c (Proc.devRef .tc main_arg4)
    _ = W4 m ρ c (Proc.devRef .tc main_arg4) := by keeps hostOps0_4
    _ = W3 m ρ c (Proc.devRef .tc main_arg4) := by keeps hostOps0_3
    _ = W2 m ρ c (Proc.devRef .tc main_arg4) := by keeps hostOps0_2
    _ = W1 m ρ c (Proc.devRef .tc main_arg4) := by keeps hostOps0_1
    _ = W0 m ρ c (Proc.devRef .tc main_arg4) := by keeps hostOps0
    _ = m ((c : Thread nD τ).loc main_arg4) := rfl
theorem bias_kept (c : Dev nD) : V5 m ρ c main_arg2 = m ((c : Thread nD τ).loc main_arg2) :=
  calc W5 m ρ c (Proc.devRef .tc main_arg2)
    _ = W4 m ρ c (Proc.devRef .tc main_arg2) := by keeps hostOps0_4
    _ = W3 m ρ c (Proc.devRef .tc main_arg2) := by keeps hostOps0_3
    _ = W2 m ρ c (Proc.devRef .tc main_arg2) := by keeps hostOps0_2
    _ = W1 m ρ c (Proc.devRef .tc main_arg2) := by keeps hostOps0_1
    _ = W0 m ρ c (Proc.devRef .tc main_arg2) := by keeps hostOps0
    _ = m ((c : Thread nD τ).loc main_arg2) := rfl

/-- The padded first-endpoint words are still there after the region (no window of the region is that buffer). -/
theorem padded_rows (c : Dev nD) (e : Fin 602112) :
    W6 m ρ c (Proc.devRef .tc main_v4) (ix1 e) = padW (words m c 0) e := by
  rw [W6_of_ne m ρ c main_v4 (by decide), v4_W5]
  exact v4_W2 m ρ c e

end Cert.KernelIdeal.BeforeMessages

end
-- ==== Proof.BeforeNodes.lean ====
/-
  What the node kernel finds: the host operations between the two regions, read entry by entry.

  The messages of the pad (positions 600000 and up) are replaced by zero, and the masked messages are scatter-added
  into a zero array at the normalised first-endpoint words: node entry `(n, q)` gets zero plus the sum of the masked
  messages of the padded edges landing on it. The node features, the weight and the bias are arguments, untouched.
-/
import proofs.«141582_j7275674599728_1_alg».proof.Proof.Gen.KernelIdeal.Frame
import proofs.«141582_j7275674599728_1_alg».proof.Proof.Spec
import proofs.«141582_j7275674599728_1_alg».proof.Proof.LibRowIndexing
import Idealize.ShloMosaic.Lib.Pipeline.Value
import Idealize.ShloMosaic.Lib.IdealHost
import Idealize.ShloMosaic.Lib.StableHlo.Run
import Idealize.ShloMosaic.Lib.StableHlo.Predicate
set_option maxRecDepth 16384

noncomputable section

open scoped BigOperators
open Idealize.ShloMosaic Idealize.ShloMosaic.TcCoe Idealize.SL.Sem Idealize.ShloMosaic.ValueIdx
open Idealize.ShloMosaic.Pipeline (Dat Cfg Window)
open Cert.KernelIdeal Cert.KernelIdeal.Gen

namespace Cert.KernelIdeal.BeforeNodes

open Cert.GraphConv

variable (m : (ℓ : Loc nD τ sig) → Buf (Elt Ideal) ℓ) (ρ : Dev nD → PrngReg)

/-- A stretch of host operations leaves a buffer none of them writes as it was. -/
local macro "kept_through% " b:term:max ops:ident : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Words and bits at one position -/

/-- A position of the padded list, as a 32-bit word, is below 600000 as a signed word exactly when it is as a number:
    every position is below 2³¹, where the signed and the unsigned order agree. -/
theorem below_edges_iff (e : Fin 602112) :
    IntOp.cmpi .slt (BitVec.ofNat 32 e.val) 600000#32 = 1 ↔ e.val < 600000 := by
  have he := e.isLt
  have h1 : (BitVec.ofNat 32 e.val).toNat = e.val := by rw [BitVec.toNat_ofNat]; omega
  have h2 : (600000#32 : BitVec 32).toNat = 600000 := by decide
  have h := StableHlo.Predicate.slt_iff_toNat (a := BitVec.ofNat 32 e.val) (b := 600000#32) (by omega) (by omega)
  rw [h1, h2] at h
  exact h

/-- The index column the scatter reads: at row `e` the word `v[e]`, normalised (a negative word has 50000 added). -/
theorem normCol_apply (v : S602112.Idx → BitVec 32) (e : Fin 602112) :
    broadcastInDim S602112x1 ![0] bcast_S602112_S602112x1_0
        (select (cmpi .slt v (broadcastInDim S602112 ![] bcast_S_S602112 (constantI S_ 32 0#32)))
          (addi v (broadcastInDim S602112 ![] bcast_S_S602112 (constantI S_ 32 50000#32))) v) (ix2 e ⟨0, Nat.one_pos⟩)
      = normW (v (ix1 e)) := by
  rw [broadcastInDim_apply _ bcast_S602112_S602112x1_0 _ (ix2 e ⟨0, Nat.one_pos⟩) (ix1 e) (fun a => match a with
    | ⟨0, _⟩ => by show e.val = if (602112 : Nat) = 1 then 0 else e.val; rw [if_neg (by decide)])]
  show Scalar.select (IntOp.cmpi .slt (v (ix1 e)) (broadcastInDim S602112 ![] bcast_S_S602112 (constantI S_ 32 0#32) (ix1 e)))
      (IntOp.addi (v (ix1 e)) (broadcastInDim S602112 ![] bcast_S_S602112 (constantI S_ 32 50000#32) (ix1 e))) (v (ix1 e)) = _
  rw [broadcastInDim_scalar_apply, broadcastInDim_scalar_apply]
  rfl

/-- The masked messages: at padded edge `e`, feature `q`, the message below position 600000 and zero on the pad. The
    mask is the position (an iota) compared with 600000, laid along the rows; the other branch is the zero array. -/
theorem maskedSel_apply (y : S602112x128.Idx → EReal) (e : Fin 602112) (q : Fin 128) :
    select (broadcastInDim S602112x128 ![0, 1] bcast_S602112x1_S602112x128_0_1
        (broadcastInDim S602112x1 ![0] bcast_S602112_S602112x1_0
          (cmpi .slt (iotaInDim S602112 32 0) (broadcastInDim S602112 ![] bcast_S_S602112 (constantI S_ 32 600000#32)))))
      y (broadcastInDim S602112x128 ![] bcast_S_S602112x128 (constant (F := Ideal) S_ .f32 0x00000000#32)) (ix2 e q)
      = if e.val < 600000 then y (ix2 e q) else 0 := by
  rw [select_apply]
  rw [broadcastInDim_apply _ bcast_S602112x1_S602112x128_0_1 _ (ix2 e q) (ix2 e ⟨0, Nat.one_pos⟩) (fun a => match a with
    | ⟨0, _⟩ => by show e.val = if (602112 : Nat) = 1 then 0 else e.val; rw [if_neg (by decide)]
    | ⟨1, _⟩ => by show (0 : Nat) = if (1 : Nat) = 1 then 0 else q.val; rw [if_pos rfl])]
  rw [broadcastInDim_apply _ bcast_S602112_S602112x1_0 _ (ix2 e ⟨0, Nat.one_pos⟩) (ix1 e) (fun a => match a with
    | ⟨0, _⟩ => by show e.val = if (602112 : Nat) = 1 then 0 else e.val; rw [if_neg (by decide)])]
  rw [broadcastInDim_scalar_apply, constant_apply, Ideal.ofBits_zero_f32]
  show Scalar.select (IntOp.cmpi .slt (BitVec.ofNat 32 e.val)
      (broadcastInDim S602112 ![] bcast_S_S602112 (constantI S_ 32 600000#32) (ix1 e))) (y (ix2 e q)) 0 = _
  rw [broadcastInDim_scalar_apply]
  show Scalar.select (IntOp.cmpi .slt (BitVec.ofNat 32 e.val) 600000#32) (y (ix2 e q)) 0 = _
  unfold Scalar.select
  by_cases h : e.val < 600000
  · rw [if_pos h, if_pos ((below_edges_iff e).mpr h)]
  · rw [if_neg h, if_neg (fun hb => h ((below_edges_iff e).mp hb))]

/-! ## The scatter, entry by entry -/

/-- Update `(e, q)` lands where the specification's `target?` says for the word the index column holds at row `e`. -/
theorem lands (idx : IVec S602112x1 32) (e : Fin 602112) (q : Fin 128) (w : BitVec 32)
    (hw : idx (ix2 e ⟨0, Nat.one_pos⟩) = w) :
    scatter_S50000x128_S602112x1_S602112x128_1_0_0_1.resultIdx? (ix2 e q) idx = target? w q := by
  have hd : scatter_S50000x128_S602112x1_S602112x128_1_0_0_1
      = Cert.RowIndexing.scatterDims 50000 602112 128 Facts₀.scatter_S50000x128_S602112x1_S602112x128_1_0_0_1_wf := rfl
  rw [hd, Cert.RowIndexing.resultIdx?_apply]
  subst hw
  rfl

/-- The scatter-add into a zero array: entry `i` is zero plus the sum of the updates whose row word names `i`'s node
    and whose feature is `i`'s. -/
theorem scatterAdd_rows (x : FVec Ideal S50000x128 .f32) (idx : IVec S602112x1 32) (upd : FVec Ideal S602112x128 .f32)
    (ws : Fin 602112 → BitVec 32) (f : SP.Idx → EReal) (hx : ∀ i, x i = (0 : EReal))
    (hidx : ∀ e : Fin 602112, idx (ix2 e ⟨0, Nat.one_pos⟩) = ws e)
    (hupd : ∀ (e : Fin 602112) (q : Fin 128), upd (ix2 e q) = f (ix2 e q)) (i : SN.Idx) :
    Host.scatterAdd (F := Ideal) (φ := .f32) scatter_S50000x128_S602112x1_S602112x128_1_0_0_1 x idx upd i
      = (0 : EReal) + ∑ p ∈ Finset.univ.filter (fun p : SP.Idx => target? (ws (p 0)) (p 1) = some i), f p := by
  unfold Host.scatterAdd
  rw [Ideal.hostScatterAdd_def]
  unfold Ideal.hostScatterAdd
  rw [hx i]
  refine congrArg (fun t : EReal => (0 : EReal) + t) ?_
  refine Finset.sum_congr (Finset.filter_congr fun p _ => ?_) (fun p _ => ?_)
  · obtain ⟨a, b, rfl⟩ : ∃ (a : Fin 602112) (b : Fin 128), p = ix2 a b := ⟨p 0, p 1, eq_ix2 p⟩
    rw [lands idx a b (ws a) (hidx a)]
  · obtain ⟨a, b, rfl⟩ : ∃ (a : Fin 602112) (b : Fin 128), p = ix2 a b := ⟨p 0, p 1, eq_ix2 p⟩
    exact hupd a b

/-- THE SCATTERED SUMS the node kernel reads, from the padded first-endpoint words `rs` the first region left in place and
    the message array `msgs` it wrote: zero plus the masked messages landing on the entry. -/
theorem scattered (c : Dev nD) (rs : Fin 602112 → BitVec 32) (msgs : SP.Idx → EReal)
    (hrs : ∀ e : Fin 602112, W6 m ρ c (Proc.devRef .tc main_v4) (ix1 e) = rs e)
    (hmsgs : W6 m ρ c (Proc.devRef .tc main_v22) = msgs) (i : SN.Idx) :
    V9 m ρ c main_v36 i
      = (0 : EReal) + ∑ p ∈ Finset.univ.filter (fun p : SP.Idx => target? (normW (rs (p 0))) (p 1) = some i),
          (if (p 0).val < 600000 then msgs p else 0) := by
  -- the first-endpoint words are untouched between the first region and the scatter
  have h4 : W8 m ρ c (Proc.devRef .tc main_v4) = W6 m ρ c (Proc.devRef .tc main_v4) :=
    calc W8 m ρ c (Proc.devRef .tc main_v4)
      _ = W7 m ρ c (Proc.devRef .tc main_v4) := kept_through% main_v4 hostOps1_1
      _ = W6 m ρ c (Proc.devRef .tc main_v4) := kept_through% main_v4 hostOps1
  -- the updates are the messages masked by position
  have h28 : ∀ (e : Fin 602112) (q : Fin 128),
      W8 m ρ c (Proc.devRef .tc main_v28) (ix2 e q) = if e.val < 600000 then msgs (ix2 e q) else 0 := by
    intro e q
    show StableHlo.after hostOps1_1 (StableHlo.after hostOps1 (W6 m ρ c)) (Proc.devRef .tc main_v28) (ix2 e q) = _
    rw [← hmsgs]
    generalize W6 m ρ c = X
    after_results
    exact maskedSel_apply _ e q
  show StableHlo.after hostOps1_2 (W8 m ρ c) (Proc.devRef .tc main_v36) i = _
  generalize W8 m ρ c = X at h4 h28
  after_results
  refine scatterAdd_rows _ _ _ (fun e => normW (rs e)) (fun p => if (p 0).val < 600000 then msgs p else 0)
    (fun j => ?_) (fun e => ?_) (fun e q => ?_) i
  · rw [broadcastInDim_scalar_apply, constant_apply, Ideal.ofBits_zero_f32]
  · rw [normCol_apply, h4, hrs]
  · exact h28 e q

/-- The node features, the weight and the bias are as launched when the second region is entered. -/
theorem features_kept (c : Dev nD) : V9 m ρ c main_arg0 = m ((c : Thread nD τ).loc main_arg0) :=
  -- no host operation writes an argument, and the first region has no window on the features
  calc W9 m ρ c (Proc.devRef .tc main_arg0)
    _ = W8 m ρ c (Proc.devRef .tc main_arg0) := kept_through% main_arg0 hostOps1_2
    _ = W7 m ρ c (Proc.devRef .tc main_arg0) := kept_through% main_arg0 hostOps1_1
    _ = W6 m ρ c (Proc.devRef .tc main_arg0) := kept_through% main_arg0 hostOps1
    _ = W5 m ρ c (Proc.devRef .tc main_arg0) := W6_of_ne m ρ c main_arg0 (by decide)
    _ = W4 m ρ c (Proc.devRef .tc main_arg0) := kept_through% main_arg0 hostOps0_4
    _ = W3 m ρ c (Proc.devRef .tc main_arg0) := kept_through% main_arg0 hostOps0_3
    _ = W2 m ρ c (Proc.devRef .tc main_arg0) := kept_through% main_arg0 hostOps0_2
    _ = W1 m ρ c (Proc.devRef .tc main_arg0) := kept_through% main_arg0 hostOps0_1
    _ = W0 m ρ c (Proc.devRef .tc main_arg0) := kept_through% main_arg0 hostOps0
    _ = m ((c : Thread nD τ).loc main_arg0) := rfl
theorem weight_kept (c : Dev nD) : V9 m ρ c main_arg1 = m ((c : Thread nD τ).loc main_arg1) :=
  -- the weight is the array of the first region's input window 4: an input window's array ends as entered
  calc W9 m ρ c (Proc.devRef .tc main_arg1)
    _ = W8 m ρ c (Proc.devRef .tc main_arg1) := kept_through% main_arg1 hostOps1_2
    _ = W7 m ρ c (Proc.devRef .tc main_arg1) := kept_through% main_arg1 hostOps1_1
    _ = W6 m ρ c (Proc.devRef .tc main_arg1) := kept_through% main_arg1 hostOps1
    _ = W5 m ρ c (Proc.devRef .tc main_arg1) := (W6_arr m ρ c 4).trans (((dat0 (V5 m ρ) c).arrAt_in 4 rfl _).trans (A_eq0 (V5 m ρ) c 4))
    _ = W4 m ρ c (Proc.devRef .tc main_arg1) := kept_through% main_arg1 hostOps0_4
    _ = W3 m ρ c (Proc.devRef .tc main_arg1) := kept_through% main_arg1 hostOps0_3
    _ = W2 m ρ c (Proc.devRef .tc main_arg1) := kept_through% main_arg1 hostOps0_2
    _ = W1 m ρ c (Proc.devRef .tc main_arg1) := kept_through% main_arg1 hostOps0_1
    _ = W0 m ρ c (Proc.devRef .tc main_arg1) := kept_through% main_arg1 hostOps0
    _ = m ((c : Thread nD τ).loc main_arg1) := rfl
theorem bias_kept (c : Dev nD) : V9 m ρ c main_arg2 = m ((c : Thread nD τ).loc main_arg2) :=
  -- the bias is the array of the first region's input window 6
  calc W9 m ρ c (Proc.devRef .tc main_arg2)
    _ = W8 m ρ c (Proc.devRef .tc main_arg2) := kept_through% main_arg2 hostOps1_2
    _ = W7 m ρ c (Proc.devRef .tc main_arg2) := kept_through% main_arg2 hostOps1_1
    _ = W6 m ρ c (Proc.devRef .tc main_arg2) := kept_through% main_arg2 hostOps1
    _ = W5 m ρ c (Proc.devRef .tc main_arg2) := (W6_arr m ρ c 6).trans (((dat0 (V5 m ρ) c).arrAt_in 6 rfl _).trans (A_eq0 (V5 m ρ) c 6))
    _ = W4 m ρ c (Proc.devRef .tc main_arg2) := kept_through% main_arg2 hostOps0_4
    _ = W3 m ρ c (Proc.devRef .tc main_arg2) := kept_through% main_arg2 hostOps0_3
    _ = W2 m ρ c (Proc.devRef .tc main_arg2) := kept_through% main_arg2 hostOps0_2
    _ = W1 m ρ c (Proc.devRef .tc main_arg2) := kept_through% main_arg2 hostOps0_1
    _ = W0 m ρ c (Proc.devRef .tc main_arg2) := kept_through% main_arg2 hostOps0
    _ = m ((c : Thread nD τ).loc main_arg2) := rfl

end Cert.KernelIdeal.BeforeNodes

end
-- ==== Proof.KernelValue.lean ====
/-
  The kernel program computes the graph convolution.

  The result buffer at the run's end is the node kernel's output array: the scattered sums plus each node's own term.
  The scattered sums are zero plus the masked messages of the padded edges landing on each entry; the masked message of
  a padded edge below 600000 is the message kernel's output there, which is the gated message of the node rows its two
  padded endpoint words name, and zero on the pad. A filtered sum over the padded list whose terms vanish on the pad is
  the filtered sum over the edge list.
-/
import proofs.«141582_j7275674599728_1_alg».proof.Proof.NodeRegion
import proofs.«141582_j7275674599728_1_alg».proof.Proof.MessageRegion
import proofs.«141582_j7275674599728_1_alg».proof.Proof.BeforeMessages
import proofs.«141582_j7275674599728_1_alg».proof.Proof.BeforeNodes

set_option maxRecDepth 16384

noncomputable section

open scoped BigOperators
open Idealize.ShloMosaic Idealize.ShloMosaic.TcCoe Idealize.SL.Sem Idealize.ShloMosaic.ValueIdx
open Cert.KernelIdeal Cert.KernelIdeal.Gen

namespace Cert.KernelIdeal.KernelValue

open Cert.GraphConv

variable (m : (ℓ : Loc nD τ sig) → Buf (Elt Ideal) ℓ) (ρ : Dev nD → PrngReg)

/-- THE KERNEL PROGRAM'S RESULT is the graph convolution of its arguments, entry by entry. -/
theorem result_eq (c : Dev nD) :
    W10 m ρ c (Proc.devRef .tc main_v37)
      = GraphConv.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  -- the result buffer is the second region's output array: the scattered sums plus the node term
  have hout : W10 m ρ c (Proc.devRef .tc main_v37) = (dat1 (V9 m ρ) c).arrAt 4 cfg1.N := W10_arr m ρ c 4
  rw [hout, NodeRegion.array_eq (V9 m ρ) c, BeforeNodes.features_kept m ρ c, BeforeNodes.weight_kept m ρ c,
    BeforeNodes.bias_kept m ρ c]
  funext i
  unfold GraphConv.nodeArray GraphConv.result
  refine congrArg₂ (· + ·) ?_ rfl
  -- the message array the first region wrote, entry by entry: the message of the padded endpoint words
  have hmsgs : W6 m ρ c (Proc.devRef .tc main_v22)
      = messageArray (V5 m ρ c main_v12) (V5 m ρ c main_v19) (V5 m ρ c main_v20) (V5 m ρ c main_v21)
          (V5 m ρ c main_arg1) (V5 m ρ c main_arg4) (V5 m ρ c main_arg2) :=
    (W6_arr m ρ c 7).trans (MessageRegion.array_eq (V5 m ρ) c)
  rw [BeforeNodes.scattered m ρ c (padW (BeforeMessages.words m c 0)) _ (BeforeMessages.padded_rows m ρ c) hmsgs i]
  have hentry : ∀ p : SP.Idx,
      messageArray (V5 m ρ c main_v12) (V5 m ρ c main_v19) (V5 m ρ c main_v20) (V5 m ρ c main_v21)
          (V5 m ρ c main_arg1) (V5 m ρ c main_arg4) (V5 m ρ c main_arg2) p
        = message (m ((c : Thread nD τ).loc main_arg0)) (m ((c : Thread nD τ).loc main_arg1)) (m ((c : Thread nD τ).loc main_arg2))
            (m ((c : Thread nD τ).loc main_arg3)) (m ((c : Thread nD τ).loc main_arg4))
            (padW (BeforeMessages.words m c 0) (p 0)) (padW (BeforeMessages.words m c 1) (p 0)) (p 1) := by
    intro p
    unfold messageArray message
    rw [BeforeMessages.weight_kept m ρ c, BeforeMessages.gate_bias_kept m ρ c, BeforeMessages.bias_kept m ρ c]
    congr 1
    · funext k; exact BeforeMessages.gathered_rows m ρ c (ix2 (p 0) k)
    · funext k; exact BeforeMessages.gathered_cols m ρ c (ix2 (p 0) k)
    · funext k; exact BeforeMessages.gate_top m ρ c k (p 1)
    · funext k; exact BeforeMessages.gate_bottom m ρ c k (p 1)
  refine congrArg ((0 : EReal) + ·) ?_
  rw [Finset.sum_congr rfl (fun p _ => by rw [hentry p])]
  -- the pad's terms are zero: the filtered sum over the padded list is the filtered sum over the edge list
  exact sum_padded (fun w q => target? (normW w) q)
    (message (m ((c : Thread nD τ).loc main_arg0)) (m ((c : Thread nD τ).loc main_arg1)) (m ((c : Thread nD τ).loc main_arg2))
      (m ((c : Thread nD τ).loc main_arg3)) (m ((c : Thread nD τ).loc main_arg4)))
    (BeforeMessages.words m c 0) (BeforeMessages.words m c 1) i

end Cert.KernelIdeal.KernelValue

end
-- ==== Proof.RefValue.lean ====
/-
  The reference computes the graph convolution.

  Read one operation at a time, the reference's result at node entry `(n, q)` is: the scatter-add into zeros, at the
  normalised first-endpoint words, of the per-edge messages, plus `x · W + b`. The per-edge message is the product of
  `1 / (1 + e^(−z))`, `z` the gate's logits, with `x_c · W + b`; the logits contract the concatenation of the two gathered
  rows with the whole gate weight, which is the sum over the first 128 inputs plus the sum over the last 128; and
  `1 / (1 + e^(−z))` spelt with the host's negate, exponential, add and divide is the logistic function on the extended
  reals.
-/
import proofs.«141582_j7275674599728_1_alg».proof.Proof.Gen.ReferenceIdeal.Read
import proofs.«141582_j7275674599728_1_alg».proof.Proof.Spec
import proofs.«141582_j7275674599728_1_alg».proof.Proof.LibRowIndexing
import Idealize.ShloMosaic.Lib.IdealHost
import Idealize.ShloMosaic.Lib.Pipeline.Value

noncomputable section

open scoped BigOperators
open Idealize.ShloMosaic Idealize.ShloMosaic.TcCoe Idealize.SL.Sem Idealize.ShloMosaic.ValueIdx
open Cert.ReferenceIdeal Cert.ReferenceIdeal.Gen Cert.ReferenceIdeal.Read

namespace Cert.ReferenceIdeal.RefValue

open Cert.GraphConv

/-! ## The endpoint words -/

/-- Row 0 of the edge list, flattened: entry `e` is the word `edge_index[0, e]`. -/
theorem row0_apply (x5 : (⟨S2x600000, .i32⟩ : BufTy).Contents (Elt Ideal)) (e : Fin 600000) :
    val_main_v1 (F := Ideal) x5 (ix1 e) = edgeW x5 0 e := by
  rw [val_main_v1_apply, val_main_v0_apply]
  unfold edgeW
  refine congrArg x5 ?_
  funext a
  match a with
  | ⟨0, _⟩ => exact Fin.ext rfl
  | ⟨1, _⟩ => exact Fin.ext (Nat.mod_eq_of_lt e.isLt)

/-- Row 1 of the edge list, flattened: entry `e` is the word `edge_index[1, e]`. -/
theorem row1_apply (x5 : (⟨S2x600000, .i32⟩ : BufTy).Contents (Elt Ideal)) (e : Fin 600000) :
    val_main_v3 (F := Ideal) x5 (ix1 e) = edgeW x5 1 e := by
  rw [val_main_v3_apply, val_main_v2_apply]
  unfold edgeW
  refine congrArg x5 ?_
  funext a
  match a with
  | ⟨0, _⟩ => exact Fin.ext rfl
  | ⟨1, _⟩ => exact Fin.ext (Nat.mod_eq_of_lt e.isLt)

/-- The first gather's index word at edge `e`: the normalised first endpoint. -/
theorem word_v9 (x5 : (⟨S2x600000, .i32⟩ : BufTy).Contents (Elt Ideal)) (e : Fin 600000) :
    val_main_v9 (F := Ideal) x5 (ix2 e ⟨0, Nat.one_pos⟩) = normW (edgeW x5 0 e) := by
  have hi : idx_main_v9 (ix2 e (⟨0, Nat.one_pos⟩ : Fin 1)) = ix1 e := by
    funext a; match a with | ⟨0, _⟩ => rfl
  rw [val_main_v9_apply, hi, val_main_v8_apply, val_main_v5_apply, val_main_v7_apply, val_main_v4_apply,
    val_main_v6_apply, val_main_c_apply, val_main_c_0_apply, row0_apply]
  rfl

/-- The second gather's index word at edge `e`: the normalised second endpoint. -/
theorem word_v16 (x5 : (⟨S2x600000, .i32⟩ : BufTy).Contents (Elt Ideal)) (e : Fin 600000) :
    val_main_v16 (F := Ideal) x5 (ix2 e ⟨0, Nat.one_pos⟩) = normW (edgeW x5 1 e) := by
  have hi : idx_main_v16 (ix2 e (⟨0, Nat.one_pos⟩ : Fin 1)) = ix1 e := by
    funext a; match a with | ⟨0, _⟩ => rfl
  rw [val_main_v16_apply, hi, val_main_v15_apply, val_main_v12_apply, val_main_v14_apply, val_main_v11_apply,
    val_main_v13_apply, val_main_c_1_apply, val_main_c_2_apply, row1_apply]
  rfl

/-- The scatter's index word at edge `e`: the normalised first endpoint. -/
theorem word_v40 (x5 : (⟨S2x600000, .i32⟩ : BufTy).Contents (Elt Ideal)) (e : Fin 600000) :
    val_main_v40 (F := Ideal) x5 (ix2 e ⟨0, Nat.one_pos⟩) = normW (edgeW x5 0 e) := by
  have hi : idx_main_v40 (ix2 e (⟨0, Nat.one_pos⟩ : Fin 1)) = ix1 e := by
    funext a; match a with | ⟨0, _⟩ => rfl
  rw [val_main_v40_apply, hi, val_main_v39_apply, val_main_v36_apply, val_main_v38_apply, val_main_v35_apply,
    val_main_v37_apply, val_main_c_5_apply, val_main_c_6_apply, row0_apply]
  rfl

/-! ## The node's own term -/

/-- The dense layer on the node features at `(n, q)`: the contraction of row `n` with column `q`, plus the bias at `q`. -/
theorem node_term (x0 : (⟨S50000x128, .f32⟩ : BufTy).Contents (Elt Ideal)) (x1 : (⟨S128x128, .f32⟩ : BufTy).Contents (Elt Ideal)) (x2 : (⟨S128, .f32⟩ : BufTy).Contents (Elt Ideal)) (n : Fin 50000) (q : Fin 128) :
    val_main_v45 (F := Ideal) x0 x1 x2 (ix2 n q) = nodeTerm x0 x1 x2 n q := by
  have hl : ∀ k : Fin 128, lidx_main_v42 (ix2 n q) k = ix2 n k := fun k => by
    funext a; match a with | ⟨0, _⟩ => rfl | ⟨1, _⟩ => rfl
  have hr : ∀ k : Fin 128, ridx_main_v42 (ix2 n q) k = ix2 k q := fun k => by
    funext a; match a with | ⟨0, _⟩ => rfl | ⟨1, _⟩ => rfl
  have hb : idx_main_v43 (idx_main_v44 (ix2 n q)) = ix1 q := by
    funext a; match a with | ⟨0, _⟩ => rfl
  rw [val_main_v45_apply, val_main_v42_apply, val_main_v44_apply, val_main_v43_apply, hb]
  simp only [hl, hr]
  rfl

/-! ## The two gathered rows and their concatenation -/

/-- The first gathered row at `(e, k)`: the node row the normalised first endpoint names, clamped, at column `k`. -/
theorem v10_apply (x0 : (⟨S50000x128, .f32⟩ : BufTy).Contents (Elt Ideal)) (x5 : (⟨S2x600000, .i32⟩ : BufTy).Contents (Elt Ideal)) (e : Fin 600000) (k : Fin 128) :
    val_main_v10 (F := Ideal) x0 x5 (ix2 e k) = x0 (ix2 (rowOf (normW (edgeW x5 0 e))) k) := by
  have hd : gather_S50000x128_S600000x1_S600000x128_1_0_n_n_0_1_1128
      = Cert.RowIndexing.gatherDims 50000 600000 128 Facts₀.gather_S50000x128_S600000x1_S600000x128_1_0_n_n_0_1_1128_wf := rfl
  unfold val_main_v10
  rw [hd, Cert.RowIndexing.gather_apply (by decide)]
  simp only [word_v9]
  rfl

/-- The second gathered row at `(e, k)`: the node row the normalised second endpoint names, clamped, at column `k`. -/
theorem v17_apply (x0 : (⟨S50000x128, .f32⟩ : BufTy).Contents (Elt Ideal)) (x5 : (⟨S2x600000, .i32⟩ : BufTy).Contents (Elt Ideal)) (e : Fin 600000) (k : Fin 128) :
    val_main_v17 (F := Ideal) x0 x5 (ix2 e k) = x0 (ix2 (rowOf (normW (edgeW x5 1 e))) k) := by
  have hd : gather_S50000x128_S600000x1_S600000x128_1_0_n_n_0_1_1128
      = Cert.RowIndexing.gatherDims 50000 600000 128 Facts₀.gather_S50000x128_S600000x1_S600000x128_1_0_n_n_0_1_1128_wf := rfl
  unfold val_main_v17
  rw [hd, Cert.RowIndexing.gather_apply (by decide)]
  simp only [word_v16]
  rfl

/-- The concatenation's first 128 columns are the first gathered row. -/
theorem v18_left (x0 : (⟨S50000x128, .f32⟩ : BufTy).Contents (Elt Ideal)) (x5 : (⟨S2x600000, .i32⟩ : BufTy).Contents (Elt Ideal)) (e : Fin 600000) (k : Fin 128) :
    val_main_v18 (F := Ideal) x0 x5 (ix2 e (⟨k.val, by omega⟩ : Fin 256)) = x0 (ix2 (rowOf (normW (edgeW x5 0 e))) k) := by
  rw [← v10_apply x0 x5 e k]
  unfold val_main_v18
  exact concatenate_pair_apply_left (t := S600000x256) (s₁ := S600000x128) (s₂ := S600000x128) (1 : Fin 2)
    (val_main_v10 (F := Ideal) x0 x5) (val_main_v17 (F := Ideal) x0 x5) concatenates_S600000x128_S600000x128_S600000x256_d1
    (ix2 e (⟨k.val, by omega⟩ : Fin 256)) rfl (ix2 e k) (fun b => match b with | ⟨0, _⟩ => rfl | ⟨1, _⟩ => rfl)

/-- The concatenation's last 128 columns are the second gathered row. -/
theorem v18_right (x0 : (⟨S50000x128, .f32⟩ : BufTy).Contents (Elt Ideal)) (x5 : (⟨S2x600000, .i32⟩ : BufTy).Contents (Elt Ideal)) (e : Fin 600000) (k : Fin 128) :
    val_main_v18 (F := Ideal) x0 x5 (ix2 e (⟨128 + k.val, by omega⟩ : Fin 256)) = x0 (ix2 (rowOf (normW (edgeW x5 1 e))) k) := by
  rw [← v17_apply x0 x5 e k]
  unfold val_main_v18
  exact concatenate_pair_apply_right (t := S600000x256) (s₁ := S600000x128) (s₂ := S600000x128) (1 : Fin 2)
    (val_main_v10 (F := Ideal) x0 x5) (val_main_v17 (F := Ideal) x0 x5) concatenates_S600000x128_S600000x128_S600000x256_d1
    (ix2 e (⟨128 + k.val, by omega⟩ : Fin 256)) rfl rfl (ix2 e k)
    (fun b => match b with | ⟨0, _⟩ => fun _ => rfl | ⟨1, _⟩ => fun h => absurd rfl h)
    (by show k.val + 128 = 128 + k.val; omega)

/-! ## One edge's message -/

/-- The gate's logits at `(e, q)`: the two gathered rows against the two halves of the gate weight, plus the gate bias. -/
theorem logits_apply (x0 : (⟨S50000x128, .f32⟩ : BufTy).Contents (Elt Ideal)) (x3 : (⟨S256x128, .f32⟩ : BufTy).Contents (Elt Ideal)) (x4 : (⟨S128, .f32⟩ : BufTy).Contents (Elt Ideal)) (x5 : (⟨S2x600000, .i32⟩ : BufTy).Contents (Elt Ideal)) (e : Fin 600000) (q : Fin 128) :
    val_main_v22 (F := Ideal) x0 x3 x4 x5 (ix2 e q)
      = ((∑ k : Fin 128, x0 (ix2 (rowOf (normW (edgeW x5 0 e))) k) * x3 (ix2 (⟨k.val, by omega⟩ : Fin 256) q))
          + (∑ k : Fin 128, x0 (ix2 (rowOf (normW (edgeW x5 1 e))) k) * x3 (ix2 (⟨128 + k.val, by omega⟩ : Fin 256) q)))
        + x4 (ix1 q) := by
  have hl : ∀ k : Fin 256, lidx_main_v19 (ix2 e q) k = ix2 e k := fun k => by
    funext a; match a with | ⟨0, _⟩ => rfl | ⟨1, _⟩ => rfl
  have hr : ∀ k : Fin 256, ridx_main_v19 (ix2 e q) k = ix2 k q := fun k => by
    funext a; match a with | ⟨0, _⟩ => rfl | ⟨1, _⟩ => rfl
  have hb : idx_main_v20 (idx_main_v21 (ix2 e q)) = ix1 q := by
    funext a; match a with | ⟨0, _⟩ => rfl
  rw [val_main_v22_apply, val_main_v19_apply, val_main_v21_apply, val_main_v20_apply, hb]
  simp only [hl, hr]
  rw [GraphConv.sum_two_halves]
  simp only [v18_left, v18_right]
  rfl

/-- The candidate at `(e, q)`: the second gathered row against the weight, plus the bias. -/
theorem cand_apply (x0 : (⟨S50000x128, .f32⟩ : BufTy).Contents (Elt Ideal)) (x1 : (⟨S128x128, .f32⟩ : BufTy).Contents (Elt Ideal)) (x2 : (⟨S128, .f32⟩ : BufTy).Contents (Elt Ideal)) (x5 : (⟨S2x600000, .i32⟩ : BufTy).Contents (Elt Ideal)) (e : Fin 600000) (q : Fin 128) :
    val_main_v32 (F := Ideal) x0 x1 x2 x5 (ix2 e q)
      = (∑ k : Fin 128, x0 (ix2 (rowOf (normW (edgeW x5 1 e))) k) * x1 (ix2 k q)) + x2 (ix1 q) := by
  have hl : ∀ k : Fin 128, lidx_main_v29 (ix2 e q) k = ix2 e k := fun k => by
    funext a; match a with | ⟨0, _⟩ => rfl | ⟨1, _⟩ => rfl
  have hr : ∀ k : Fin 128, ridx_main_v29 (ix2 e q) k = ix2 k q := fun k => by
    funext a; match a with | ⟨0, _⟩ => rfl | ⟨1, _⟩ => rfl
  have hb : idx_main_v30 (idx_main_v31 (ix2 e q)) = ix1 q := by
    funext a; match a with | ⟨0, _⟩ => rfl
  rw [val_main_v32_apply, val_main_v29_apply, val_main_v31_apply, val_main_v30_apply, hb]
  simp only [hl, hr, v17_apply]
  rfl

/-- The gate at an entry: one over one plus the exponential of the negated logits is the logistic function of the logits. -/
theorem gate_apply (x0 : (⟨S50000x128, .f32⟩ : BufTy).Contents (Elt Ideal)) (x3 : (⟨S256x128, .f32⟩ : BufTy).Contents (Elt Ideal)) (x4 : (⟨S128, .f32⟩ : BufTy).Contents (Elt Ideal)) (x5 : (⟨S2x600000, .i32⟩ : BufTy).Contents (Elt Ideal)) (i : S600000x128.Idx) :
    val_main_v28 (F := Ideal) x0 x3 x4 x5 i = Ideal.logistic (val_main_v22 (F := Ideal) x0 x3 x4 x5 i) := by
  rw [val_main_v28_apply, val_main_v27_apply, val_main_cst_3_apply, val_main_v26_apply, val_main_v25_apply,
    val_main_cst_apply, val_main_v24_apply, val_main_v23_apply]
  generalize val_main_v22 (F := Ideal) x0 x3 x4 x5 i = z
  simp only [Ideal.ofBits_def, Ideal.ofBits_one_f32, Ideal.hostDivf_def, Ideal.addf_def, Ideal.hostUnary_exp_def,
    Ideal.hostNegf_def, Ideal.negf_def]
  rfl

/-- THE MESSAGE of edge `e` at feature `q`: the gate times the candidate. -/
theorem message_apply (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S256x128, .f32⟩ : BufTy).Contents (Elt Ideal)) (x4 : (⟨S128, .f32⟩ : BufTy).Contents (Elt Ideal)) (x5 : (⟨S2x600000, .i32⟩ : BufTy).Contents (Elt Ideal)) (e : Fin 600000) (q : Fin 128) :
    val_main_v33 (F := Ideal) x0 x1 x2 x3 x4 x5 (ix2 e q)
      = message x0 x1 x2 x3 x4 (edgeW x5 0 e) (edgeW x5 1 e) q := by
  rw [val_main_v33_apply, gate_apply, logits_apply, cand_apply]
  rfl

/-! ## The scatter -/

/-- Where the update `(e, q')` lands: the node the normalised first endpoint names, feature `q'`, when it is a node. -/
theorem scatter_target (x5 : (⟨S2x600000, .i32⟩ : BufTy).Contents (Elt Ideal)) (e : Fin 600000) (q' : Fin 128) :
    scatter_S50000x128_S600000x1_S600000x128_1_0_0_1.resultIdx? (ix2 e q') (val_main_v40 (F := Ideal) x5)
      = target? (normW (edgeW x5 0 e)) q' := by
  have hd : scatter_S50000x128_S600000x1_S600000x128_1_0_0_1
      = Cert.RowIndexing.scatterDims 50000 600000 128 Facts₀.scatter_S50000x128_S600000x1_S600000x128_1_0_0_1_wf := rfl
  rw [hd, Cert.RowIndexing.resultIdx?_apply]
  simp only [word_v40]
  rfl

/-- THE SCATTER at an entry: zero plus the messages of the edges that land on it. -/
theorem scatter_apply (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S256x128, .f32⟩ : BufTy).Contents (Elt Ideal)) (x4 : (⟨S128, .f32⟩ : BufTy).Contents (Elt Ideal)) (x5 : (⟨S2x600000, .i32⟩ : BufTy).Contents (Elt Ideal)) (i : S50000x128.Idx) :
    val_main_v41 (F := Ideal) x0 x1 x2 x3 x4 x5 i
      = (0 : EReal) + ∑ p ∈ Finset.univ.filter (fun p : SM.Idx => target? (normW (edgeW x5 0 (p 0))) (p 1) = some i),
          message x0 x1 x2 x3 x4 (edgeW x5 0 (p 0)) (edgeW x5 1 (p 0)) (p 1) := by
  unfold val_main_v41
  simp only [Host.scatterAdd, Ideal.hostScatterAdd_def]
  unfold Ideal.hostScatterAdd
  rw [val_main_v34_apply, val_main_cst_4_apply, Ideal.ofBits_def, Ideal.ofBits_zero_f32]
  refine congrArg (fun t => (0 : EReal) + t) ?_
  refine Finset.sum_congr (Finset.filter_congr fun j _ => ?_) fun j _ => ?_
  · obtain ⟨e, q', rfl⟩ : ∃ (e : Fin 600000) (q' : Fin 128), j = ix2 e q' := ⟨j 0, j 1, eq_ix2 j⟩
    rw [scatter_target]
  · obtain ⟨e, q', rfl⟩ : ∃ (e : Fin 600000) (q' : Fin 128), j = ix2 e q' := ⟨j 0, j 1, eq_ix2 j⟩
    exact message_apply x0 x1 x2 x3 x4 x5 e q'

/-- THE REFERENCE'S RESULT is the graph convolution of its arguments, entry by entry. -/
theorem result_eq (x0 : (⟨S50000x128, .f32⟩ : BufTy).Contents (Elt Ideal)) (x1 : (⟨S128x128, .f32⟩ : BufTy).Contents (Elt Ideal))
    (x2 : (⟨S128, .f32⟩ : BufTy).Contents (Elt Ideal)) (x3 : (⟨S256x128, .f32⟩ : BufTy).Contents (Elt Ideal))
    (x4 : (⟨S128, .f32⟩ : BufTy).Contents (Elt Ideal)) (x5 : (⟨S2x600000, .i32⟩ : BufTy).Contents (Elt Ideal)) :
    val_main_v46 (F := Ideal) x0 x1 x2 x3 x4 x5 = GraphConv.result x0 x1 x2 x3 x4 x5 := by
  funext i
  obtain ⟨n, q, rfl⟩ : ∃ (n : Fin 50000) (q : Fin 128), i = ix2 n q := ⟨i 0, i 1, eq_ix2 i⟩
  rw [val_main_v46_apply, scatter_apply, node_term]
  rfl

end Cert.ReferenceIdeal.RefValue

end
-- ==== Proof.lean ====
/-
  Message passing over a graph (gated messages scatter-added onto nodes), kernel program against reference.

  Both programs compute, at node `n` and feature `q`, the sum over the edges `e` whose first endpoint is `n` of
  `σ(x_r · Wg[0:128, q] + x_c · Wg[128:256, q] + bg[q]) · (x_c · W[·, q] + b[q])`, plus `x_n · W[·, q] + b[q]`
  (Proof/Spec.lean's `GraphConv.result`). The kernel program pads the edge list to 602112 entries, computes the
  messages of all padded edges in one kernel, replaces the pad's messages by zero, scatter-adds, and adds the node
  term in a second kernel (Proof/KernelValue.lean); the reference does the same over the 600000 edges with host
  operations, the gate's two halves as one contraction over 256 inputs and the logistic function spelt out
  (Proof/RefValue.lean). On the extended reals the matrix unit's narrowing is the identity, every product is the
  plain sum, and addition is a commutative monoid, so the zero terms of the pad and the split of the contraction
  cost nothing: no finiteness is used. The ideal pass rewrote nothing, so `preserves` is trivial.
-/
import proofs.«141582_j7275674599728_1_alg».proof.Defs
import proofs.«141582_j7275674599728_1_alg».proof.Proof.Gen.Kernel
import proofs.«141582_j7275674599728_1_alg».proof.Proof.Gen.Kernel.Skeleton
import proofs.«141582_j7275674599728_1_alg».proof.Proof.Gen.Kernel.Launch
import proofs.«141582_j7275674599728_1_alg».proof.Proof.Gen.Kernel.Points
import proofs.«141582_j7275674599728_1_alg».proof.Proof.Gen.Kernel.Frame
import proofs.«141582_j7275674599728_1_alg».proof.Proof.Gen.KernelIdeal
import proofs.«141582_j7275674599728_1_alg».proof.Proof.Gen.KernelIdeal.Skeleton
import proofs.«141582_j7275674599728_1_alg».proof.Proof.Gen.KernelIdeal.Launch
import proofs.«141582_j7275674599728_1_alg».proof.Proof.Gen.KernelIdeal.Points
import proofs.«141582_j7275674599728_1_alg».proof.Proof.Gen.KernelIdeal.Frame
import proofs.«141582_j7275674599728_1_alg».proof.Proof.Gen.ReferenceIdeal
import proofs.«141582_j7275674599728_1_alg».proof.Proof.Gen.Pre_finite_inputs
import proofs.«141582_j7275674599728_1_alg».proof.Proof.Gen.ReferenceIdeal.Run
import proofs.«141582_j7275674599728_1_alg».proof.Proof.Gen.ReferenceIdeal.Read
import proofs.«141582_j7275674599728_1_alg».proof.Proof.KernelRun
import proofs.«141582_j7275674599728_1_alg».proof.Proof.KernelValue
import proofs.«141582_j7275674599728_1_alg».proof.Proof.RefValue
import Idealize.ShloMosaic.Adequacy
import Idealize.ShloMosaic.Init

noncomputable section

namespace Cert.Proof

open Idealize.ShloMosaic Idealize.SL.Sem

/-- The three programs run, terminate without a fault and leave their arguments as launched. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals both programs end with the graph convolution of their arguments in the result buffer; the
    arguments agree, so the results do. -/
theorem algebraic : Cert.algebraic_KernelIdeal_ReferenceIdeal := by
  intro m ρ m' ρ' _ hagree
  refine ⟨fun c => Cert.GraphConv.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KernelValue.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v46_eq, Cert.ReferenceIdeal.RefValue.result_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
